-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x128 : Shape := ⟨2, ![8192, 128]⟩
abbrev S128x128 : Shape := ⟨2, ![128, 128]⟩
abbrev S128 : Shape := ⟨1, ![128]⟩
abbrev S_ : Shape := ⟨0, ![]⟩
abbrev S8192 : Shape := ⟨1, ![8192]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg0 : FVec F S8192x8192 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_cst_6 : FVec F S_ .f32 := constant S_ .f32 0x00000000#32
  let main_v19 : FVec F S8192 .f32 := (fun x v => Host.reduceAdd x v reducesTo_S8192x8192_S8192_d1 h_S_) main_arg0 main_cst_6
  let main_cst_7 : FVec F S_ .f32 := constant S_ .f32 0x00000000#32
  let main_v20 : FVec F S8192 .f32 := broadcastInDim S8192 ![] bcast_S_S8192 main_cst_7
  let main_v21 : IVec S8192 1 := cmpf .ogt main_v19 main_v20
  let main_c_8 : IVec S_ 1 := constantI S_ 1 1#1
  let main_v22 : IVec S_ 1 := (fun x v => Host.reduce IntOp.andi x v reducesTo_S8192_S_d0 h_S_) main_v21 main_c_8
  let main_v23 : IVec S_ 1 := andi main_v18 main_v22
  main_v23

def fn {F : FTy → Type} [FloatOps F] (main_arg0 : FVec F S8192x8192 .f32) (main_arg1 : FVec F S8192x128 .f32) (main_arg2 : FVec F S128x128 .f32) (main_arg3 : FVec F S128 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_v13 main_v16
-- ==== Kernel.lean ====
abbrev S8192x8192 : Shape := ⟨2, ![8192, 8192]⟩
abbrev S8192x128 : Shape := ⟨2, ![8192, 128]⟩
abbrev S128x128 : Shape := ⟨2, ![128, 128]⟩
abbrev S128 : Shape := ⟨1, ![128]⟩
abbrev S8192x1 : Shape := ⟨2, ![8192, 1]⟩
abbrev S2048x1024 : Shape := ⟨2, ![2048, 1024]⟩
abbrev S2048x1 : Shape := ⟨2, ![2048, 1]⟩
abbrev S2048 : Shape := ⟨1, ![2048]⟩
abbrev S1024x128 : Shape := ⟨2, ![1024, 128]⟩
abbrev S2048x128 : Shape := ⟨2, ![2048, 128]⟩
abbrev S1x128 : Shape := ⟨2, ![1, 128]⟩

abbrev nBuf : Space → Nat
  | .hbm => 8
  | .vmem => 16
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S128x128, .f32⟩
  | .hbm, ⟨3, _⟩ => ⟨S128, .f32⟩
  | .hbm, ⟨4, _⟩ => ⟨S8192x1, .f32⟩
  | .hbm, ⟨5, _⟩ => ⟨S8192x128, .f32⟩
  | .hbm, ⟨6, _⟩ => ⟨S8192x128, .f32⟩
  | .hbm, ⟨7, _⟩ => ⟨S8192x128, .f32⟩
  | .local _ .vmem, ⟨0, _⟩ => ⟨S2048x1024, .f32⟩
  | .local _ .vmem, ⟨1, _⟩ => ⟨S2048x1024, .f32⟩
  | .local _ .vmem, ⟨2, _⟩ => ⟨S2048x1, .f32⟩
  | .local _ .vmem, ⟨3, _⟩ => ⟨S2048x1, .f32⟩
  | .local _ .vmem, ⟨4, _⟩ => ⟨S2048x1, .f32⟩
  | .local _ .vmem, ⟨5, _⟩ => ⟨S2048x1024, .f32⟩
  | .local _ .vmem, ⟨6, _⟩ => ⟨S2048x1024, .f32⟩
  | .local _ .vmem, ⟨7, _⟩ => ⟨S1024x128, .f32⟩
  | .local _ .vmem, ⟨8, _⟩ => ⟨S1024x128, .f32⟩
  | .local _ .vmem, ⟨9, _⟩ => ⟨S2048x1, .f32⟩
  | .local _ .vmem, ⟨10, _⟩ => ⟨S2048x1, .f32⟩
  | .local _ .vmem, ⟨11, _⟩ => ⟨S128x128, .f32⟩
  | .local _ .vmem, ⟨12, _⟩ => ⟨S128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  shapeCasts_S2048_S2048x1 : S2048.ShapeCasts S2048x1
  bcast_S8192x1_S8192x128_0_1 : S8192x1.BroadcastsInDim S8192x128 (![0, 1] : Fin 2 → Fin S8192x128.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  broadcasts_S2048x1_S2048x128 : S2048x1.Broadcasts S2048x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  dot_S2048x1024_S1024x128_S2048x128_1_0_0_1_n_n_wf : DotDims.WF S2048x1024 S1024x128 S2048x128 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x8192.size a
  hwx0_0 : ∀ i : grid0.Coords, EltTy.bits .f32 = 32 ∨ (Rect.block (s := S8192x8192) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S8192x1.size a
  hwx0_1 : ∀ i : grid0.Coords, EltTy.bits .f32 = 32 ∨ (Rect.block (s := S8192x1) S2048x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x8192.size a
  hwx1_0 : ∀ i : grid1.Coords, EltTy.bits .f32 = 32 ∨ (Rect.block (s := S8192x8192) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S8192x1.size a
  hwx1_2 : ∀ i : grid1.Coords, EltTy.bits .f32 = 32 ∨ (Rect.block (s := S8192x1) S2048x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x128.size a ≤ S8192x128.size a
  hwx1_5 : ∀ i : grid1.Coords, EltTy.bits .f32 = 32 ∨ (Rect.block (s := S8192x128) S2048x128.size (cc1_transform_5 i) (hinb1_5 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S2048x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x128 : Shape := ⟨2, ![8192, 128]⟩
abbrev S128x128 : Shape := ⟨2, ![128, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x128 : Shape := ⟨2, ![1, 128]⟩

abbrev nBuf : Space → Nat
  | .hbm => 24
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192x1, .f32⟩
  | .hbm, ⟨11, _⟩ => ⟨S8192x8192, .f32⟩
  | .hbm, ⟨12, _⟩ => ⟨S8192x8192, .f32⟩
  | .hbm, ⟨13, _⟩ => ⟨S1x8192, .f32⟩
  | .hbm, ⟨14, _⟩ => ⟨S8192x8192, .f32⟩
  | .hbm, ⟨15, _⟩ => ⟨S8192x8192, .f32⟩
  | .hbm, ⟨16, _⟩ => ⟨S8192x128, .f32⟩
  | .hbm, ⟨17, _⟩ => ⟨S8192x128, .f32⟩
  | .hbm, ⟨18, _⟩ => ⟨S1x128, .f32⟩
  | .hbm, ⟨19, _⟩ => ⟨S8192x128, .f32⟩
  | .hbm, ⟨20, _⟩ => ⟨S8192x128, .f32⟩
  | .hbm, ⟨21, _⟩ => ⟨S_, .f32⟩
  | .hbm, ⟨22, _⟩ => ⟨S8192x128, .f32⟩
  | .hbm, ⟨23, _⟩ => ⟨S8192x128, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_cst : Ref sig .tc := ⟨.hbm, 21, rfl⟩
abbrev main_call0_v0 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.K.R0Kit.lean ====
/-
  The degree pass (the first kernel region) on its 4 × 8 grid, at any contents V of the core's buffers when the region
  is entered: point t = 8·i + k reads the 2048 × 1024 block (i, k) of the adjacency, and the block i of the 8192 × 1
  result is written back after the last k. This module fixes what the three control cases of the body are stated over:
  the window blocks, the two branch conditions in closed form (k = 0 resets the running row sums, k = 7 stores their
  reciprocal square roots), where the result window is idle, and the names of the staging and scratch memrefs.
-/
import proofs.«144340_j48576080118434_1_alg».proof.Proof.Gen.Kernel.Launch
import proofs.«144340_j48576080118434_1_alg».proof.Proof.Gen.Kernel.Skeleton
import proofs.«144340_j48576080118434_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's current staging buffer holds its block at every point, for any proof data whose array is
    V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- The reset of the running sums is taken: the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The store of the result is taken: the second grid coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-! ## The memrefs the body is called with -/

/-- One staging buffer of the result window, through which its contents are stated. -/
abbrev VO0_1 : View sig .tc .vmem S2048x1 .f32 := (Memref.whole cc0_stg1_0 : Memref sig .tc .vmem S2048x1 .f32).view
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .f32 := win0_1.stage (cfg0.slots t 1)
abbrev hs0_1 (t : Fin cfg0.N) : (ms0_1 t).IsWhole := hstage0_1 ((cfg0.slots t 1).cast nbuf0_1)
/-- The running row sums: a whole scoped buffer of the kernel's own. -/
abbrev scM0_0 : Memref sig .tc .vmem S2048x1 .f32 := Memref.whole cc0_scratch0
abbrev VS0_0 : View sig .tc .vmem S2048x1 .f32 := scM0_0.view

/-- The core's other scoped buffers that are no staging buffer of this region (the second region's staging buffers and
    its accumulator), each whole at some contents: the body never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The class invariant with the running sums as a memref owned at some contents, the other scoped buffers beside it. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA others0; rw [scopedRest0_eq]; simp only [scM0_0, owns_whole]; try rfl

end Cert.Kernel.Frm

end
-- ==== Proof.K.R0RunA.lean ====
/-
  The degree pass at a point with k = 0 (the first block of a row of blocks): the running row sums are reset to zero,
  the block's row sums are added, nothing is stored into the result window, which is handed back as it was found.
  What the running sums end with is found by running the body: the pieces its stores leave, last first.
-/
import proofs.«144340_j48576080118434_1_alg».proof.Proof.K.R0Kit

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at k = 0 on whole memrefs: the adjacency block at x0, the result window at any xi1 (handed back
    untouched), the running sums at anything; it ends with the running sums' pieces LS0 written. -/
noncomputable def kernelRun0_A (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x1024 .f32) :
    Σ' (L1 : List (View.Piece (Elt F) S2048x1 .f32)), { LS0 : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel_body i arg2 harg2 arg3 harg3 arg4 harg4) K } := by
  refine ⟨[], ?_, fun xi1 E K => ?run⟩
  case run =>
    simp only [cc0__degree_kernel_body_eq_skeleton]; unfold cc0__degree_kernel_body_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Frm

end
-- ==== Proof.K.R0RunB.lean ====
/-
  The degree pass at a point with 0 < k < 7: the block's row sums are added to the running sums the point before
  left, nothing is stored into the result window, which is handed back as it was found.
-/
import proofs.«144340_j48576080118434_1_alg».proof.Proof.K.R0RunA

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at 0 < k < 7 on whole memrefs: the adjacency block at x0, the result window at any xi1 (handed back
    untouched), the running sums at xs0; it ends with the running sums' pieces LS0 written. -/
noncomputable def kernelRun0_B (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x1024 .f32) (xs0 : Vec F S2048x1 .f32) :
    Σ' (L1 : List (View.Piece (Elt F) S2048x1 .f32)), { LS0 : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel_body i arg2 harg2 arg3 harg3 arg4 harg4) K } := by
  refine ⟨[], ?_, fun xi1 E K => ?run⟩
  case run =>
    simp only [cc0__degree_kernel_body_eq_skeleton]; unfold cc0__degree_kernel_body_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Frm

end
-- ==== Proof.K.R0RunC.lean ====
/-
  The degree pass at a point with k = 7 (the last block of a row of blocks): the block's row sums are added to the
  running sums the point before left, and the reciprocal square roots of the completed row sums are stored into the
  result window, which the pipeline writes back after this point.
-/
import proofs.«144340_j48576080118434_1_alg».proof.Proof.K.R0RunB

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at k = 7 on whole memrefs: the adjacency block at x0, the result window at anything, the running
    sums at xs0; it ends with the result window's pieces L1 and the running sums' pieces LS0 written. -/
noncomputable def kernelRun0_C (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x1024 .f32) (xs0 : Vec F S2048x1 .f32) :
    Σ' (L1 : List (View.Piece (Elt F) S2048x1 .f32)), { LS0 : List (View.Piece (Elt F) S2048x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel_body i arg2 harg2 arg3 harg3 arg4 harg4) K } := by
  refine ⟨?_, ?_, fun E K => ?run⟩
  case run =>
    simp only [cc0__degree_kernel_body_eq_skeleton]; unfold cc0__degree_kernel_body_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Frm

end
-- ==== Proof.K.R0Frame.lean ====
/-
  The degree pass, all of it: what each of the body's three cases leaves in the running row sums and in the result
  window; what they hold after every point of the grid, by recursion on the point (the running sums after point 8·i + k
  are the row sums of the blocks (i, 0) … (i, k); the result block is stored at k = 7); the region's invariant, which
  carries the running sums from one point to the next; the proof data; and the body's obligation at every point, by
  cases on k.
-/
import proofs.«144340_j48576080118434_1_alg».proof.Proof.K.R0RunC

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At k = 0 nothing is stored into the result window: a placeholder nothing consults. -/
def out0_A_1 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x1024 .f32) : Vec F S2048x1 .f32 :=
  VO0_1.read (Elt F) (VO0_1.writes (Elt F) VO0_1.junk (kernelRun0_A c i arg2 harg2 arg3 harg3 arg4 harg4 hc0 hc1 x0).1)

/-- At k = 0 the stores into the running sums cover them. -/
theorem scover0_A_0 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x1024 .f32) (y : S2048x1.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S2048x1.size (by sl_kernel_rfl) y

/-- What the point leaves in the running sums at k = 0. -/
def sout0_A_0 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x1024 .f32) : Vec F S2048x1 .f32 :=
  VS0_0.read (Elt F) (VS0_0.writes (Elt F) VS0_0.junk (kernelRun0_A c i arg2 harg2 arg3 harg3 arg4 harg4 hc0 hc1 x0).2.1)

/-- At 0 < k < 7 nothing is stored into the result window: a placeholder nothing consults. -/
def out0_B_1 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x1024 .f32) (xs0 : Vec F S2048x1 .f32) : Vec F S2048x1 .f32 :=
  VO0_1.read (Elt F) (VO0_1.writes (Elt F) VO0_1.junk (kernelRun0_B c i arg2 harg2 arg3 harg3 arg4 harg4 hc0 hc1 x0 xs0).1)

theorem scover0_B_0 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x1024 .f32) (xs0 : Vec F S2048x1 .f32) (y : S2048x1.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S2048x1.size (by sl_kernel_rfl) y

/-- What the point leaves in the running sums at 0 < k < 7. -/
def sout0_B_0 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x1024 .f32) (xs0 : Vec F S2048x1 .f32) : Vec F S2048x1 .f32 :=
  VS0_0.read (Elt F) (VS0_0.writes (Elt F) VS0_0.junk (kernelRun0_B c i arg2 harg2 arg3 harg3 arg4 harg4 hc0 hc1 x0 xs0).2.1)

/-- At k = 7 the store into the result window covers its block. -/
theorem cover0_C_1 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x1024 .f32) (xs0 : Vec F S2048x1 .f32) (y : S2048x1.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S2048x1.size (by sl_kernel_rfl) y

/-- What the point leaves in the result window at k = 7. -/
def out0_C_1 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x1024 .f32) (xs0 : Vec F S2048x1 .f32) : Vec F S2048x1 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x1024 .f32) (xs0 : Vec F S2048x1 .f32) (y : S2048x1.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S2048x1.size (by sl_kernel_rfl) y

/-- What the point leaves in the running sums at k = 7. -/
def sout0_C_0 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x1024 .f32) (xs0 : Vec F S2048x1 .f32) : Vec F S2048x1 .f32 :=
  VS0_0.read (Elt F) (VS0_0.writes (Elt F) VS0_0.junk (kernelRun0_C c i arg2 harg2 arg3 harg3 arg4 harg4 hc0 hc1 x0 xs0).2.1)

/-! ## What the buffers hold after each point -/

/-- THE ACCUMULATION: the result window's staging buffer and the running sums after the body at position n — the case
    k = n mod 8 selects, run at the point's memrefs and adjacency block, over the running sums position n − 1 left. -/
def outsAt0 (c : Dev nD) : (n : ℕ) → n < cfg0.N → Vec F S2048x1 .f32 × Vec F S2048x1 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 8 = 0 then
      if h1 : (n + 1) % 8 = 7 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 8 = 7 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

/-- The accumulation at a point with k = 0. -/
theorem outsAt0_A (c : Dev nD) (t : Fin cfg0.N) (h0 : t.val % 8 = 0) (h1 : ¬t.val % 8 = 7) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

/-- The accumulation at a point with 0 < k < 7, over what the point before left. -/
theorem outsAt0_B (c : Dev nD) (t : Fin cfg0.N) (h0 : ¬t.val % 8 = 0) (h1 : ¬t.val % 8 = 7) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The accumulation at a point with k = 7, over what the point before left. -/
theorem outsAt0_C (c : Dev nD) (t : Fin cfg0.N) (h0 : ¬t.val % 8 = 0) (h1 : t.val % 8 = 7) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position n: at the first point the class invariant (every scoped buffer of the core that is no staging
    buffer here at anything, the generator register at some state); afterwards the same with the running sums at what
    the point before left. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The proof data -/

/-- The arrays as the region finds them; after the body at point t the adjacency window's buffer at its block and the
    result window's at the accumulation's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body's obligation at a point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the adjacency window holds its block; k decides the case; the invariant hands the body the
    running sums at what the point before left (at anything at k = 0 of the first point) and takes them back at this
    point's contents; the other scoped buffers and the generator register pass through; nothing is owed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _)
            iexact Hoth
          iexact Hg
        isplitl [Ho]; · iexact Ho
        isplitl [H0]; · iexact H0
        iexists _; iexact H1
      · rw [PhiS0_castSucc V c t, PhiS0_pos V c _ _ hz]
        iintro ⟨⟨⟨HS0, Hoth⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _)
            iexact Hoth
          iexact Hg
        isplitl [Ho]; · iexact Ho
        isplitl [H0]; · iexact H0
        iexists _; iexact H1
  · by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      have hz : t.val ≠ 0 := by omega
      rw [PhiS0_castSucc V c t, PhiS0_pos V c _ _ hz]
      iintro ⟨⟨⟨HS0, Hoth⟩, Hg⟩, Ho, ⟨%d0, H0⟩, ⟨%d1, H1⟩⟩
      iapply ((kernelRun0_C c (grid0.coords t) _ _ _ _ _ _ (fun h => h0 ((hcond0_0 t).mp h)) ((hcond0_1 t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _)
          iexact Hoth
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      have hz : t.val ≠ 0 := by omega
      rw [PhiS0_castSucc V c t, PhiS0_pos V c _ _ hz]
      iintro ⟨⟨⟨HS0, Hoth⟩, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk0 V c 0 t) _).2.2 _ Set.univ _)
      isplitl [H0]; · iexact H0
      isplitl [H1]; · iexact H1
      isplitl [HS0]; · iexact HS0
      iintro ⟨H0, H1, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _)
          iexact Hoth
        iexact Hg
      isplitl [Ho]; · iexact Ho
      isplitl [H0]; · iexact H0
      iexists _; iexact H1

/-- The body's obligation at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class invariant back: the running sums' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ Pipeline.ΦA spec0 c :=
  Phi_out0 V c _ (by rw [Fin.val_last]; have : cfg0.N = 32 := N_0; omega)

end Cert.Kernel.Frm

end
-- ==== Proof.K.Fold0.lean ====
/-
  The buffers' contents up to the second region's entry: the launch memory; after the degree pass, its result array at
  what its write-backs leave and every other buffer as launched; after the two host operations, the normaliser
  broadcast along the feature axis and the features scaled by it added, nothing else changed.
-/
import proofs.«144340_j48576080118434_1_alg».proof.Proof.K.R0Frame

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch (the first region's entry). -/
abbrev W0 : Dev nD → Valuation τ sig (Elt F) := fun c b => m (c, b)
abbrev V0 : (c : Dev nD) → (b : Ref sig .tc) → Buf (Elt F) ((c : Thread nD τ).loc b) := fun c b => W0 m c b
/-- At the first region's exit: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the two host operations (the second region's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- The host operations write neither an argument nor the first region's result. -/
theorem W2_keep (c : Dev nD) (b : Ref sig .tc) (hb : b ≠ main_v1 ∧ b ≠ main_v2) :
    W2 m c (Proc.devRef .tc b) = W1 m c (Proc.devRef .tc b) :=
  StableHlo.after_of_forall_not_mem (b := Proc.devRef .tc b) _ _ (List.forall_iff_forall_mem.mp (by
    simp only [hostOps1, List.Forall, StableHlo.unary_writes, StableHlo.binary_writes, Finset.mem_singleton]
    exact ⟨StableHlo.devRef_ne_of_ne hb.1, StableHlo.devRef_ne_of_ne hb.2⟩))

end Cert.Kernel.Frm

end
-- ==== Proof.K.R1Kit.lean ====
/-
  The aggregation pass (the second kernel region) on its 4 × 8 grid, at any contents V of the core's buffers when the
  region is entered: point t = 8·i + k reads the 2048 × 1024 block (i, k) of the adjacency, the 1024 × 128 block k of
  the pre-scaled features, the 2048 × 1 block i of the normaliser, the whole weights and the whole bias; the 2048 × 128
  block i of the result is written back after the last k. This module fixes what the three control cases of the body
  are stated over: the window blocks, the two branch conditions in closed form (k = 0 resets the accumulator, k = 7
  stores the result block), where the result window is idle, and the names of the staging and scratch memrefs.
-/
import proofs.«144340_j48576080118434_1_alg».proof.Proof.Gen.Kernel.Launch
import proofs.«144340_j48576080118434_1_alg».proof.Proof.Gen.Kernel.Skeleton
import proofs.«144340_j48576080118434_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency window's current staging buffer holds its block at every point, fetched there or not (where it is
    not fetched its block index has not moved), for any proof data whose array is V's and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The feature window's current staging buffer holds its block at every point, fetched there or not (where it is
    not fetched its block index has not moved), for any proof data whose array is V's and whose body leaves the
    block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The normaliser window's current staging buffer holds its block at every point, fetched there or not (where it is
    not fetched its block index has not moved), for any proof data whose array is V's and whose body leaves the
    block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The weight window's current staging buffer holds its block at every point, fetched there or not (where it is
    not fetched its block index has not moved), for any proof data whose array is V's and whose body leaves the
    block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The bias window's current staging buffer holds its block at every point, fetched there or not (where it is
    not fetched its block index has not moved), for any proof data whose array is V's and whose body leaves the
    block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- The reset of the accumulator is taken: the second grid coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The store of the result block is taken: the second grid coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
theorem liveAt1_5_C : ∀ t : Fin cfg1.N, ¬cond1_0 (grid1.coords t) → cond1_1 (grid1.coords t) → cfg1.idle 5 (grid1.coords t) = false := by decide +kernel

/-! ## The memrefs the body is called with -/

/-- One staging buffer of the result window, through which its contents are stated. -/
abbrev VO1_5 : View sig .tc .vmem S2048x128 .f32 := (Memref.whole cc1_stg5_0 : Memref sig .tc .vmem S2048x128 .f32).view
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x128 .f32 := win1_5.stage (cfg1.slots t 5)
abbrev hs1_5 (t : Fin cfg1.N) : (ms1_5 t).IsWhole := hstage1_5 ((cfg1.slots t 5).cast nbuf1_5)
/-- The accumulator: a whole scoped buffer of the kernel's own. -/
abbrev scM1_0 : Memref sig .tc .vmem S2048x128 .f32 := Memref.whole cc1_scratch0
abbrev VS1_0 : View sig .tc .vmem S2048x128 .f32 := scM1_0.view

/-- The core's other scoped buffers that are no staging buffer of this region (the first region's staging buffers and
    its running sums), each whole at some contents: the body never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f))

/-- The class invariant with the accumulator as a memref owned at some contents, the other scoped buffers beside it:
    the same separating conjunction with the accumulator's conjunct moved from the last place to the first. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  have h₁ : (Pipeline.ΦA spec1 c : sProp 𝕄)
      ⊢ iprop(iprop((∃ d, owns (c : Thread nD τ) scM1_0 fullShare d) ∗ others1 c) ∗ (∃ r, prngReg c r)) := by
    unfold Pipeline.ΦA others1; rw [scopedRest1_eq]; simp only [scM1_0, owns_whole]
    iintro ⟨⟨H0, H1, H2, H3, H4, HS⟩, Hg⟩
    isplitl [H0 H1 H2 H3 H4 HS]
    · isplitl [HS]; · iexact HS
      isplitl [H0]; · iexact H0
      isplitl [H1]; · iexact H1
      isplitl [H2]; · iexact H2
      isplitl [H3]; · iexact H3
      iexact H4
    iexact Hg
  have h₂ : iprop(iprop((∃ d, owns (c : Thread nD τ) scM1_0 fullShare d) ∗ others1 c) ∗ (∃ r, prngReg c r))
      ⊢ (Pipeline.ΦA spec1 c : sProp 𝕄) := by
    unfold Pipeline.ΦA others1; rw [scopedRest1_eq]; simp only [scM1_0, owns_whole]
    iintro ⟨⟨HS, H0, H1, H2, H3, H4⟩, Hg⟩
    isplitl [H0 H1 H2 H3 H4 HS]
    · isplitl [H0]; · iexact H0
      isplitl [H1]; · iexact H1
      isplitl [H2]; · iexact H2
      isplitl [H3]; · iexact H3
      isplitl [H4]; · iexact H4
      iexact HS
    iexact Hg
  exact BI.equiv_iff.mp ⟨h₁, h₂⟩

end Cert.Kernel.Frm

end
-- ==== Proof.K.R1RunA.lean ====
/-
  The aggregation pass at a point with k = 0 (the first block of a row of blocks): the accumulator is reset to zero,
  the product of the adjacency block and the feature block is added, nothing is stored into the result window, which
  is handed back as it was found. What the accumulator ends with is found by running the body: the pieces its stores
  leave, last first.
-/
import proofs.«144340_j48576080118434_1_alg».proof.Proof.K.R1Kit

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at k = 0 on whole memrefs: the five input blocks at x0 … x4 (handed back untouched), the result
    window at any xi5 (handed back untouched), the accumulator at anything; it ends with the accumulator's pieces LS0
    written. -/
noncomputable def kernelRun1_A (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x1 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2048x128 .f32) (harg7 : arg7.IsWhole) (arg8 : Memref sig .tc .vmem S2048x128 .f32) (harg8 : arg8.IsWhole) (hc0 : cond1_0 i) (hc1 : ¬cond1_1 i)
    (x0 : Vec F S2048x1024 .f32) (x1 : Vec F S1024x128 .f32) (x2 : Vec F S2048x1 .f32) (x3 : Vec F S128x128 .f32) (x4 : Vec F S128 .f32) :
    Σ' (L5 : List (View.Piece (Elt F) S2048x128 .f32)), { LS0 : List (View.Piece (Elt F) S2048x128 .f32) //
      ∀ (xi5 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gc_kernel_body i arg2 harg2 arg3 harg3 arg4 harg4 arg5 harg5 arg6 harg6 arg7 harg7 arg8 harg8) K } := by
  refine ⟨[], ?_, fun xi5 E K => ?run⟩
  case run =>
    simp only [cc1__gc_kernel_body_eq_skeleton]; unfold cc1__gc_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Frm

end
-- ==== Proof.K.R1RunB.lean ====
/-
  The aggregation pass at a point with 0 < k < 7: the product of the adjacency block and the feature block is added to
  the accumulator the point before left, nothing is stored into the result window, which is handed back as it was
  found.
-/
import proofs.«144340_j48576080118434_1_alg».proof.Proof.K.R1RunA

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at 0 < k < 7 on whole memrefs: the five input blocks at x0 … x4 (handed back untouched), the result
    window at any xi5 (handed back untouched), the accumulator at xs0; it ends with the accumulator's pieces LS0
    written. -/
noncomputable def kernelRun1_B (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x1 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : ¬cond1_1 i)
    (x0 : Vec F S2048x1024 .f32) (x1 : Vec F S1024x128 .f32) (x2 : Vec F S2048x1 .f32) (x3 : Vec F S128x128 .f32) (x4 : Vec F S128 .f32) (xs0 : Vec F S2048x128 .f32) :
    Σ' (L5 : List (View.Piece (Elt F) S2048x128 .f32)), { LS0 : List (View.Piece (Elt F) S2048x128 .f32) //
      ∀ (xi5 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gc_kernel_body i arg2 harg2 arg3 harg3 arg4 harg4 arg5 harg5 arg6 harg6 arg7 harg7 arg8 harg8) K } := by
  refine ⟨[], ?_, fun xi5 E K => ?run⟩
  case run =>
    simp only [cc1__gc_kernel_body_eq_skeleton]; unfold cc1__gc_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Frm

end
-- ==== Proof.K.R1RunC.lean ====
/-
  The aggregation pass at a point with k = 7 (the last block of a row of blocks): the product of the adjacency block
  and the feature block is added to the accumulator the point before left, and the result block (the completed
  accumulator scaled row by row by the normaliser, contracted against the weights, the bias added, clamped at zero
  from below) is stored into the result window, which the pipeline writes back after this point.
-/
import proofs.«144340_j48576080118434_1_alg».proof.Proof.K.R1RunB

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at k = 7 on whole memrefs: the five input blocks at x0 … x4 (handed back untouched), the result
    window at anything, the accumulator at xs0; it ends with the result window's pieces L5 and the accumulator's
    pieces LS0 written. -/
noncomputable def kernelRun1_C (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x1 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x1024 .f32) (x1 : Vec F S1024x128 .f32) (x2 : Vec F S2048x1 .f32) (x3 : Vec F S128x128 .f32) (x4 : Vec F S128 .f32) (xs0 : Vec F S2048x128 .f32) :
    Σ' (L5 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__gc_kernel_body i arg2 harg2 arg3 harg3 arg4 harg4 arg5 harg5 arg6 harg6 arg7 harg7 arg8 harg8) K } := by
  refine ⟨?_, ?_, fun E K => ?run⟩
  case run =>
    simp only [cc1__gc_kernel_body_eq_skeleton]; unfold cc1__gc_kernel_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Frm

end
-- ==== Proof.K.R1Frame.lean ====
/-
  The aggregation pass, all of it: what each of the body's three cases leaves in the accumulator and in the result
  window; what they hold after every point of the grid, by recursion on the point (the accumulator after point 8·i + k
  is the sum over k' ≤ k of the products of the adjacency blocks (i, k') with the feature blocks k'; the result block is
  stored at k = 7); the region's invariant, which carries the accumulator from one point to the next; the proof data;
  and the body's obligation at every point, by cases on k.
-/
import proofs.«144340_j48576080118434_1_alg».proof.Proof.K.R1RunC

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At k = 0 nothing is stored into the result window: a placeholder nothing consults. -/
def out1_A_5 (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x1 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2048x128 .f32) (harg7 : arg7.IsWhole) (arg8 : Memref sig .tc .vmem S2048x128 .f32) (harg8 : arg8.IsWhole) (hc0 : cond1_0 i) (hc1 : ¬cond1_1 i)
    (x0 : Vec F S2048x1024 .f32) (x1 : Vec F S1024x128 .f32) (x2 : Vec F S2048x1 .f32) (x3 : Vec F S128x128 .f32) (x4 : Vec F S128 .f32) : Vec F S2048x128 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- At k = 0 the stores into the accumulator cover it. -/
theorem scover1_A_0 (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x1 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2048x128 .f32) (harg7 : arg7.IsWhole) (arg8 : Memref sig .tc .vmem S2048x128 .f32) (harg8 : arg8.IsWhole) (hc0 : cond1_0 i) (hc1 : ¬cond1_1 i)
    (x0 : Vec F S2048x1024 .f32) (x1 : Vec F S1024x128 .f32) (x2 : Vec F S2048x1 .f32) (x3 : Vec F S128x128 .f32) (x4 : Vec F S128 .f32) (y : S2048x128.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S2048x128.size (by sl_kernel_rfl) y

/-- What the point leaves in the accumulator at k = 0. -/
def sout1_A_0 (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x1 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2048x128 .f32) (harg7 : arg7.IsWhole) (arg8 : Memref sig .tc .vmem S2048x128 .f32) (harg8 : arg8.IsWhole) (hc0 : cond1_0 i) (hc1 : ¬cond1_1 i)
    (x0 : Vec F S2048x1024 .f32) (x1 : Vec F S1024x128 .f32) (x2 : Vec F S2048x1 .f32) (x3 : Vec F S128x128 .f32) (x4 : Vec F S128 .f32) : Vec F S2048x128 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- At 0 < k < 7 nothing is stored into the result window: a placeholder nothing consults. -/
def out1_B_5 (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x1 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : ¬cond1_1 i)
    (x0 : Vec F S2048x1024 .f32) (x1 : Vec F S1024x128 .f32) (x2 : Vec F S2048x1 .f32) (x3 : Vec F S128x128 .f32) (x4 : Vec F S128 .f32) (xs0 : Vec F S2048x128 .f32) : Vec F S2048x128 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

/-- At 0 < k < 7 the stores into the accumulator cover it. -/
theorem scover1_B_0 (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x1 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : ¬cond1_1 i)
    (x0 : Vec F S2048x1024 .f32) (x1 : Vec F S1024x128 .f32) (x2 : Vec F S2048x1 .f32) (x3 : Vec F S128x128 .f32) (x4 : Vec F S128 .f32) (xs0 : Vec F S2048x128 .f32) (y : S2048x128.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S2048x128.size (by sl_kernel_rfl) y

/-- What the point leaves in the accumulator at 0 < k < 7. -/
def sout1_B_0 (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x1 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : ¬cond1_1 i)
    (x0 : Vec F S2048x1024 .f32) (x1 : Vec F S1024x128 .f32) (x2 : Vec F S2048x1 .f32) (x3 : Vec F S128x128 .f32) (x4 : Vec F S128 .f32) (xs0 : Vec F S2048x128 .f32) : Vec F S2048x128 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

/-- At k = 7 the store into the result window covers its block. -/
theorem cover1_C_5 (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x1 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x1024 .f32) (x1 : Vec F S1024x128 .f32) (x2 : Vec F S2048x1 .f32) (x3 : Vec F S128x128 .f32) (x4 : Vec F S128 .f32) (xs0 : Vec F S2048x128 .f32) (y : S2048x128.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S2048x128.size (by sl_kernel_rfl) y

/-- What the point leaves in the result window at k = 7. -/
def out1_C_5 (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x1 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x1024 .f32) (x1 : Vec F S1024x128 .f32) (x2 : Vec F S2048x1 .f32) (x3 : Vec F S128x128 .f32) (x4 : Vec F S128 .f32) (xs0 : Vec F S2048x128 .f32) : Vec F S2048x128 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

/-- At k = 7 the stores into the accumulator cover it. -/
theorem scover1_C_0 (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x1 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x1024 .f32) (x1 : Vec F S1024x128 .f32) (x2 : Vec F S2048x1 .f32) (x3 : Vec F S128x128 .f32) (x4 : Vec F S128 .f32) (xs0 : Vec F S2048x128 .f32) (y : S2048x128.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S2048x128.size (by sl_kernel_rfl) y

/-- What the point leaves in the accumulator at k = 7. -/
def sout1_C_0 (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x1 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x1024 .f32) (x1 : Vec F S1024x128 .f32) (x2 : Vec F S2048x1 .f32) (x3 : Vec F S128x128 .f32) (x4 : Vec F S128 .f32) (xs0 : Vec F S2048x128 .f32) : Vec F S2048x128 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

/-! ## What the buffers hold after each point -/

/-- THE ACCUMULATION: the result window's staging buffer and the accumulator after the body at position n — the case
    k = n mod 8 selects, run at the point's memrefs and input blocks, over the accumulator position n − 1 left. -/
def outsAt1 (c : Dev nD) : (n : ℕ) → n < cfg1.N → Vec F S2048x128 .f32 × Vec F S2048x128 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      if h1 : (n + 1) % 8 = 7 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- The accumulation at a point with k = 0. -/
theorem outsAt1_A (c : Dev nD) (t : Fin cfg1.N) (h0 : t.val % 8 = 0) (h1 : ¬t.val % 8 = 7) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- The accumulation at a point with 0 < k < 7, over what the point before left. -/
theorem outsAt1_B (c : Dev nD) (t : Fin cfg1.N) (h0 : ¬t.val % 8 = 0) (h1 : ¬t.val % 8 = 7) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The accumulation at a point with k = 7, over what the point before left. -/
theorem outsAt1_C (c : Dev nD) (t : Fin cfg1.N) (h0 : ¬t.val % 8 = 0) (h1 : t.val % 8 = 7) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position n: at the first point the class invariant (every scoped buffer of the core that is no staging
    buffer here at anything, the generator register at some state); afterwards the same with the accumulator at what
    the point before left. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 c) ∗ (∃ r, prngReg c r)) := by
  cases n with
  | zero => exact absurd rfl hz
  | succ n => rfl

/-! ## The proof data -/

/-- The arrays as the region finds them; after the body at point t each input window's buffer at its block and the
    result window's at the accumulation's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body's obligation at a point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: every input window holds its block; k decides the case; the invariant hands the body the
    accumulator at what the point before left (at anything at k = 0 of the first point) and takes it back at this
    point's contents; the other scoped buffers and the generator register pass through; nothing is owed. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 8 = 0
  · by_cases h1 : t.val % 8 = 7
    · exfalso; omega
    · have hc0 : cond1_0 (grid1.coords t) := (hcond1_0 t).mpr h0
      have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t hc0 hc1) (noFlush1_5_A t hc0 hc1)]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hoth⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ hc0 hc1 (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ hc0 hc1 (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    · have hc0 : ¬cond1_0 (grid1.coords t) := fun h => h0 ((hcond1_0 t).mp h)
      have hc1 : cond1_1 (grid1.coords t) := (hcond1_1 t).mpr h1
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t hc0 hc1], after1_5]
      rw [outsAt1_C V c t h0 h1]
      unfold out1_C_5 sout1_C_0; (try dsimp only)
      have hz : t.val ≠ 0 := by omega
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ hc0 hc1 (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _)
    · have hc0 : ¬cond1_0 (grid1.coords t) := fun h => h0 ((hcond1_0 t).mp h)
      have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t hc0 hc1) (noFlush1_5_B t hc0 hc1)]
      rw [outsAt1_B V c t h0 h1]
      unfold sout1_B_0; (try dsimp only)
      have hz : t.val ≠ 0 := by omega
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ hc0 hc1 (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body's obligation at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hoth⟩, Hg⟩
  isplitl [HS0 Hoth]
  · isplitl [HS0]
    · iexists _; iexact HS0
    iexact Hoth
  iexact Hg

theorem hout1 (c : Dev nD) : (dat1 V c).Φ (Fin.last cfg1.N) ⊢ Pipeline.ΦA spec1 c :=
  Phi_out1 V c _ (by rw [Fin.val_last]; have : cfg1.N = 32 := N_1; omega)

end Cert.Kernel.Frm

end
-- ==== Proof.K.Launch.lean ====
/-
  The whole program's run: the degree pass, the host's scaling of the features' rows by the normaliser, the aggregation
  pass. The buffers' contents at each boundary are a fold from the launch memory: after the first region its arrays hold
  what its write-backs leave; after the two host operations the broadcast normaliser and the scaled features are added;
  after the second region the result array holds what its write-backs leave. Every execution terminates, the four
  argument arrays end as launched (no operation and no region writes one), and the result array ends at the second
  region's written-back blocks.
-/
import proofs.«144340_j48576080118434_1_alg».proof.Proof.K.Fold0
import proofs.«144340_j48576080118434_1_alg».proof.Proof.K.R1Frame

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the second region's exit -/

/-- At the second region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (V2 m) c).arrAt_in 0 rfl _).trans (A_eq1 (V2 m) c 0))
    _ = W1 m c (Proc.devRef .tc main_arg0) := W2_keep m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_keep m c main_arg1 (by decide)
    _ = W0 m c (Proc.devRef .tc main_arg1) := W1_of_ne m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := (W3_arr m c 3).trans (((dat1 (V2 m) c).arrAt_in 3 rfl _).trans (A_eq1 (V2 m) c 3))
    _ = W1 m c (Proc.devRef .tc main_arg2) := W2_keep m c main_arg2 (by decide)
    _ = W0 m c (Proc.devRef .tc main_arg2) := W1_of_ne m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := (W3_arr m c 4).trans (((dat1 (V2 m) c).arrAt_in 4 rfl _).trans (A_eq1 (V2 m) c 4))
    _ = W1 m c (Proc.devRef .tc main_arg3) := W2_keep m c main_arg3 (by decide)
    _ = W0 m c (Proc.devRef .tc main_arg3) := W1_of_ne m c main_arg3 (by decide)
    _ = m ((c : Thread nD τ).loc main_arg3) := rfl
/-- The result array ends at the second region's written-back blocks. -/
theorem W3_main_v3 (c : Dev nD) : W3 m c (Proc.devRef .tc main_v3) = (dat1 (V2 m) c).arrAt 5 cfg1.N := W3_arr m c 5

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The degree pass over the thread state: entered from every unscoped buffer at the launch contents, left with its
    arrays at what it wrote back. The generator register and the scoped rest go into the region's invariant and come back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec0 c ⊢ (pdats m 0 c).Φ 0 from hin0 (V0 m) c)
    unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation pass over the thread state: entered from the buffers after the host operations, left with its
    arrays at what it wrote back (what the launch reads at the end). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m 1 c).Φ 0 from hin1 (V2 m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .host (hseg hostOps1 hostOps1_sub hostOps1_fresh' (W1 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution terminates, nothing faulting, and every
    final state holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The run read at the result and the arguments: the result array at the second region's written-back blocks, the
    four arguments as launched. -/
theorem run_result : θ_run defs (onTc (τ := τ) (main (F := F))) ⟨m, fun _ => 0, ρ⟩ (fun r => ∀ c : Dev nD,
      r.2.mem ((c.tc : Thread nD τ).loc main_v3) = (dat1 (V2 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v3 (by decide))).trans (W3_main_v3 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_main m ρ)

/-- The frame: every execution terminates and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_result m ρ)

end Cert.Kernel.Frm

end
-- ==== Proof.KI.R0Kit.lean ====
/-
  The degree pass (the first kernel region) on its 4 × 8 grid, at any contents V of the core's buffers when the region
  is entered: point t = 8·i + k reads the 2048 × 1024 block (i, k) of the adjacency, and the block i of the 8192 × 1
  result is written back after the last k. This module fixes what the three control cases of the body are stated over:
  the window blocks, the two branch conditions in closed form (k = 0 resets the running row sums, k = 7 stores their
  reciprocal square roots), where the result window is idle, and the names of the staging and scratch memrefs.
-/
import proofs.«144340_j48576080118434_1_alg».proof.Proof.Gen.KernelIdeal.Launch
import proofs.«144340_j48576080118434_1_alg».proof.Proof.Gen.KernelIdeal.Skeleton
import proofs.«144340_j48576080118434_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's current staging buffer holds its block at every point, for any proof data whose array is
    V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- The reset of the running sums is taken: the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The store of the result is taken: the second grid coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-! ## The memrefs the body is called with -/

/-- One staging buffer of the result window, through which its contents are stated. -/
abbrev VO0_1 : View sig .tc .vmem S2048x1 .f32 := (Memref.whole cc0_stg1_0 : Memref sig .tc .vmem S2048x1 .f32).view
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .f32 := win0_1.stage (cfg0.slots t 1)
abbrev hs0_1 (t : Fin cfg0.N) : (ms0_1 t).IsWhole := hstage0_1 ((cfg0.slots t 1).cast nbuf0_1)
/-- The running row sums: a whole scoped buffer of the kernel's own. -/
abbrev scM0_0 : Memref sig .tc .vmem S2048x1 .f32 := Memref.whole cc0_scratch0
abbrev VS0_0 : View sig .tc .vmem S2048x1 .f32 := scM0_0.view

/-- The core's other scoped buffers that are no staging buffer of this region (the second region's staging buffers and
    its accumulator), each whole at some contents: the body never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The class invariant with the running sums as a memref owned at some contents, the other scoped buffers beside it. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA others0; rw [scopedRest0_eq]; simp only [scM0_0, owns_whole]; try rfl

end Cert.KernelIdeal.Frm

end
-- ==== Proof.KI.R0RunA.lean ====
/-
  The degree pass at a point with k = 0 (the first block of a row of blocks): the running row sums are reset to zero,
  the block's row sums are added, nothing is stored into the result window, which is handed back as it was found.
  What the running sums end with is found by running the body: the pieces its stores leave, last first.
-/
import proofs.«144340_j48576080118434_1_alg».proof.Proof.KI.R0Kit

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at k = 0 on whole memrefs: the adjacency block at x0, the result window at any xi1 (handed back
    untouched), the running sums at anything; it ends with the running sums' pieces LS0 written. -/
noncomputable def kernelRun0_A (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x1024 .f32) :
    Σ' (L1 : List (View.Piece (Elt F) S2048x1 .f32)), { LS0 : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel_body i arg2 harg2 arg3 harg3 arg4 harg4) K } := by
  refine ⟨[], ?_, fun xi1 E K => ?run⟩
  case run =>
    simp only [cc0__degree_kernel_body_eq_skeleton]; unfold cc0__degree_kernel_body_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Frm

end
-- ==== Proof.KI.R0RunB.lean ====
/-
  The degree pass at a point with 0 < k < 7: the block's row sums are added to the running sums the point before
  left, nothing is stored into the result window, which is handed back as it was found.
-/
import proofs.«144340_j48576080118434_1_alg».proof.Proof.KI.R0RunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at 0 < k < 7 on whole memrefs: the adjacency block at x0, the result window at any xi1 (handed back
    untouched), the running sums at xs0; it ends with the running sums' pieces LS0 written. -/
noncomputable def kernelRun0_B (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x1024 .f32) (xs0 : Vec F S2048x1 .f32) :
    Σ' (L1 : List (View.Piece (Elt F) S2048x1 .f32)), { LS0 : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel_body i arg2 harg2 arg3 harg3 arg4 harg4) K } := by
  refine ⟨[], ?_, fun xi1 E K => ?run⟩
  case run =>
    simp only [cc0__degree_kernel_body_eq_skeleton]; unfold cc0__degree_kernel_body_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Frm

end
-- ==== Proof.KI.R0RunC.lean ====
/-
  The degree pass at a point with k = 7 (the last block of a row of blocks): the block's row sums are added to the
  running sums the point before left, and the reciprocal square roots of the completed row sums are stored into the
  result window, which the pipeline writes back after this point.
-/
import proofs.«144340_j48576080118434_1_alg».proof.Proof.KI.R0RunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at k = 7 on whole memrefs: the adjacency block at x0, the result window at anything, the running
    sums at xs0; it ends with the result window's pieces L1 and the running sums' pieces LS0 written. -/
noncomputable def kernelRun0_C (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x1024 .f32) (xs0 : Vec F S2048x1 .f32) :
    Σ' (L1 : List (View.Piece (Elt F) S2048x1 .f32)), { LS0 : List (View.Piece (Elt F) S2048x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel_body i arg2 harg2 arg3 harg3 arg4 harg4) K } := by
  refine ⟨?_, ?_, fun E K => ?run⟩
  case run =>
    simp only [cc0__degree_kernel_body_eq_skeleton]; unfold cc0__degree_kernel_body_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Frm

end
-- ==== Proof.KI.R0Frame.lean ====
/-
  The degree pass, all of it: what each of the body's three cases leaves in the running row sums and in the result
  window; what they hold after every point of the grid, by recursion on the point (the running sums after point 8·i + k
  are the row sums of the blocks (i, 0) … (i, k); the result block is stored at k = 7); the region's invariant, which
  carries the running sums from one point to the next; the proof data; and the body's obligation at every point, by
  cases on k.
-/
import proofs.«144340_j48576080118434_1_alg».proof.Proof.KI.R0RunC

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At k = 0 nothing is stored into the result window: a placeholder nothing consults. -/
def out0_A_1 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x1024 .f32) : Vec F S2048x1 .f32 :=
  VO0_1.read (Elt F) (VO0_1.writes (Elt F) VO0_1.junk (kernelRun0_A c i arg2 harg2 arg3 harg3 arg4 harg4 hc0 hc1 x0).1)

/-- At k = 0 the stores into the running sums cover them. -/
theorem scover0_A_0 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x1024 .f32) (y : S2048x1.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S2048x1.size (by sl_kernel_rfl) y

/-- What the point leaves in the running sums at k = 0. -/
def sout0_A_0 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x1024 .f32) : Vec F S2048x1 .f32 :=
  VS0_0.read (Elt F) (VS0_0.writes (Elt F) VS0_0.junk (kernelRun0_A c i arg2 harg2 arg3 harg3 arg4 harg4 hc0 hc1 x0).2.1)

/-- At 0 < k < 7 nothing is stored into the result window: a placeholder nothing consults. -/
def out0_B_1 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x1024 .f32) (xs0 : Vec F S2048x1 .f32) : Vec F S2048x1 .f32 :=
  VO0_1.read (Elt F) (VO0_1.writes (Elt F) VO0_1.junk (kernelRun0_B c i arg2 harg2 arg3 harg3 arg4 harg4 hc0 hc1 x0 xs0).1)

theorem scover0_B_0 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x1024 .f32) (xs0 : Vec F S2048x1 .f32) (y : S2048x1.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S2048x1.size (by sl_kernel_rfl) y

/-- What the point leaves in the running sums at 0 < k < 7. -/
def sout0_B_0 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x1024 .f32) (xs0 : Vec F S2048x1 .f32) : Vec F S2048x1 .f32 :=
  VS0_0.read (Elt F) (VS0_0.writes (Elt F) VS0_0.junk (kernelRun0_B c i arg2 harg2 arg3 harg3 arg4 harg4 hc0 hc1 x0 xs0).2.1)

/-- At k = 7 the store into the result window covers its block. -/
theorem cover0_C_1 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x1024 .f32) (xs0 : Vec F S2048x1 .f32) (y : S2048x1.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S2048x1.size (by sl_kernel_rfl) y

/-- What the point leaves in the result window at k = 7. -/
def out0_C_1 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x1024 .f32) (xs0 : Vec F S2048x1 .f32) : Vec F S2048x1 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x1024 .f32) (xs0 : Vec F S2048x1 .f32) (y : S2048x1.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S2048x1.size (by sl_kernel_rfl) y

/-- What the point leaves in the running sums at k = 7. -/
def sout0_C_0 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x1024 .f32) (xs0 : Vec F S2048x1 .f32) : Vec F S2048x1 .f32 :=
  VS0_0.read (Elt F) (VS0_0.writes (Elt F) VS0_0.junk (kernelRun0_C c i arg2 harg2 arg3 harg3 arg4 harg4 hc0 hc1 x0 xs0).2.1)

/-! ## What the buffers hold after each point -/

/-- THE ACCUMULATION: the result window's staging buffer and the running sums after the body at position n — the case
    k = n mod 8 selects, run at the point's memrefs and adjacency block, over the running sums position n − 1 left. -/
def outsAt0 (c : Dev nD) : (n : ℕ) → n < cfg0.N → Vec F S2048x1 .f32 × Vec F S2048x1 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 8 = 0 then
      if h1 : (n + 1) % 8 = 7 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 8 = 7 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

/-- The accumulation at a point with k = 0. -/
theorem outsAt0_A (c : Dev nD) (t : Fin cfg0.N) (h0 : t.val % 8 = 0) (h1 : ¬t.val % 8 = 7) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

/-- The accumulation at a point with 0 < k < 7, over what the point before left. -/
theorem outsAt0_B (c : Dev nD) (t : Fin cfg0.N) (h0 : ¬t.val % 8 = 0) (h1 : ¬t.val % 8 = 7) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The accumulation at a point with k = 7, over what the point before left. -/
theorem outsAt0_C (c : Dev nD) (t : Fin cfg0.N) (h0 : ¬t.val % 8 = 0) (h1 : t.val % 8 = 7) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position n: at the first point the class invariant (every scoped buffer of the core that is no staging
    buffer here at anything, the generator register at some state); afterwards the same with the running sums at what
    the point before left. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The proof data -/

/-- The arrays as the region finds them; after the body at point t the adjacency window's buffer at its block and the
    result window's at the accumulation's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body's obligation at a point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the adjacency window holds its block; k decides the case; the invariant hands the body the
    running sums at what the point before left (at anything at k = 0 of the first point) and takes them back at this
    point's contents; the other scoped buffers and the generator register pass through; nothing is owed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _)
            iexact Hoth
          iexact Hg
        isplitl [Ho]; · iexact Ho
        isplitl [H0]; · iexact H0
        iexists _; iexact H1
      · rw [PhiS0_castSucc V c t, PhiS0_pos V c _ _ hz]
        iintro ⟨⟨⟨HS0, Hoth⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _)
            iexact Hoth
          iexact Hg
        isplitl [Ho]; · iexact Ho
        isplitl [H0]; · iexact H0
        iexists _; iexact H1
  · by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      have hz : t.val ≠ 0 := by omega
      rw [PhiS0_castSucc V c t, PhiS0_pos V c _ _ hz]
      iintro ⟨⟨⟨HS0, Hoth⟩, Hg⟩, Ho, ⟨%d0, H0⟩, ⟨%d1, H1⟩⟩
      iapply ((kernelRun0_C c (grid0.coords t) _ _ _ _ _ _ (fun h => h0 ((hcond0_0 t).mp h)) ((hcond0_1 t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _)
          iexact Hoth
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      have hz : t.val ≠ 0 := by omega
      rw [PhiS0_castSucc V c t, PhiS0_pos V c _ _ hz]
      iintro ⟨⟨⟨HS0, Hoth⟩, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk0 V c 0 t) _).2.2 _ Set.univ _)
      isplitl [H0]; · iexact H0
      isplitl [H1]; · iexact H1
      isplitl [HS0]; · iexact HS0
      iintro ⟨H0, H1, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _)
          iexact Hoth
        iexact Hg
      isplitl [Ho]; · iexact Ho
      isplitl [H0]; · iexact H0
      iexists _; iexact H1

/-- The body's obligation at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class invariant back: the running sums' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ Pipeline.ΦA spec0 c :=
  Phi_out0 V c _ (by rw [Fin.val_last]; have : cfg0.N = 32 := N_0; omega)

end Cert.KernelIdeal.Frm

end
-- ==== Proof.KI.Fold0.lean ====
/-
  The buffers' contents up to the second region's entry: the launch memory; after the degree pass, its result array at
  what its write-backs leave and every other buffer as launched; after the two host operations, the normaliser
  broadcast along the feature axis and the features scaled by it added, nothing else changed.
-/
import proofs.«144340_j48576080118434_1_alg».proof.Proof.KI.R0Frame

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch (the first region's entry). -/
abbrev W0 : Dev nD → Valuation τ sig (Elt F) := fun c b => m (c, b)
abbrev V0 : (c : Dev nD) → (b : Ref sig .tc) → Buf (Elt F) ((c : Thread nD τ).loc b) := fun c b => W0 m c b
/-- At the first region's exit: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the two host operations (the second region's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- The host operations write neither an argument nor the first region's result. -/
theorem W2_keep (c : Dev nD) (b : Ref sig .tc) (hb : b ≠ main_v1 ∧ b ≠ main_v2) :
    W2 m c (Proc.devRef .tc b) = W1 m c (Proc.devRef .tc b) :=
  StableHlo.after_of_forall_not_mem (b := Proc.devRef .tc b) _ _ (List.forall_iff_forall_mem.mp (by
    simp only [hostOps1, List.Forall, StableHlo.unary_writes, StableHlo.binary_writes, Finset.mem_singleton]
    exact ⟨StableHlo.devRef_ne_of_ne hb.1, StableHlo.devRef_ne_of_ne hb.2⟩))

end Cert.KernelIdeal.Frm

end
-- ==== Proof.KI.R1Kit.lean ====
/-
  The aggregation pass (the second kernel region) on its 4 × 8 grid, at any contents V of the core's buffers when the
  region is entered: point t = 8·i + k reads the 2048 × 1024 block (i, k) of the adjacency, the 1024 × 128 block k of
  the pre-scaled features, the 2048 × 1 block i of the normaliser, the whole weights and the whole bias; the 2048 × 128
  block i of the result is written back after the last k. This module fixes what the three control cases of the body
  are stated over: the window blocks, the two branch conditions in closed form (k = 0 resets the accumulator, k = 7
  stores the result block), where the result window is idle, and the names of the staging and scratch memrefs.
-/
import proofs.«144340_j48576080118434_1_alg».proof.Proof.Gen.KernelIdeal.Launch
import proofs.«144340_j48576080118434_1_alg».proof.Proof.Gen.KernelIdeal.Skeleton
import proofs.«144340_j48576080118434_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency window's current staging buffer holds its block at every point, fetched there or not (where it is
    not fetched its block index has not moved), for any proof data whose array is V's and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The feature window's current staging buffer holds its block at every point, fetched there or not (where it is
    not fetched its block index has not moved), for any proof data whose array is V's and whose body leaves the
    block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The normaliser window's current staging buffer holds its block at every point, fetched there or not (where it is
    not fetched its block index has not moved), for any proof data whose array is V's and whose body leaves the
    block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The weight window's current staging buffer holds its block at every point, fetched there or not (where it is
    not fetched its block index has not moved), for any proof data whose array is V's and whose body leaves the
    block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The bias window's current staging buffer holds its block at every point, fetched there or not (where it is
    not fetched its block index has not moved), for any proof data whose array is V's and whose body leaves the
    block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- The reset of the accumulator is taken: the second grid coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The store of the result block is taken: the second grid coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
theorem liveAt1_5_C : ∀ t : Fin cfg1.N, ¬cond1_0 (grid1.coords t) → cond1_1 (grid1.coords t) → cfg1.idle 5 (grid1.coords t) = false := by decide +kernel

/-! ## The memrefs the body is called with -/

/-- One staging buffer of the result window, through which its contents are stated. -/
abbrev VO1_5 : View sig .tc .vmem S2048x128 .f32 := (Memref.whole cc1_stg5_0 : Memref sig .tc .vmem S2048x128 .f32).view
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x128 .f32 := win1_5.stage (cfg1.slots t 5)
abbrev hs1_5 (t : Fin cfg1.N) : (ms1_5 t).IsWhole := hstage1_5 ((cfg1.slots t 5).cast nbuf1_5)
/-- The accumulator: a whole scoped buffer of the kernel's own. -/
abbrev scM1_0 : Memref sig .tc .vmem S2048x128 .f32 := Memref.whole cc1_scratch0
abbrev VS1_0 : View sig .tc .vmem S2048x128 .f32 := scM1_0.view

/-- The core's other scoped buffers that are no staging buffer of this region (the first region's staging buffers and
    its running sums), each whole at some contents: the body never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f))

/-- The class invariant with the accumulator as a memref owned at some contents, the other scoped buffers beside it:
    the same separating conjunction with the accumulator's conjunct moved from the last place to the first. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  have h₁ : (Pipeline.ΦA spec1 c : sProp 𝕄)
      ⊢ iprop(iprop((∃ d, owns (c : Thread nD τ) scM1_0 fullShare d) ∗ others1 c) ∗ (∃ r, prngReg c r)) := by
    unfold Pipeline.ΦA others1; rw [scopedRest1_eq]; simp only [scM1_0, owns_whole]
    iintro ⟨⟨H0, H1, H2, H3, H4, HS⟩, Hg⟩
    isplitl [H0 H1 H2 H3 H4 HS]
    · isplitl [HS]; · iexact HS
      isplitl [H0]; · iexact H0
      isplitl [H1]; · iexact H1
      isplitl [H2]; · iexact H2
      isplitl [H3]; · iexact H3
      iexact H4
    iexact Hg
  have h₂ : iprop(iprop((∃ d, owns (c : Thread nD τ) scM1_0 fullShare d) ∗ others1 c) ∗ (∃ r, prngReg c r))
      ⊢ (Pipeline.ΦA spec1 c : sProp 𝕄) := by
    unfold Pipeline.ΦA others1; rw [scopedRest1_eq]; simp only [scM1_0, owns_whole]
    iintro ⟨⟨HS, H0, H1, H2, H3, H4⟩, Hg⟩
    isplitl [H0 H1 H2 H3 H4 HS]
    · isplitl [H0]; · iexact H0
      isplitl [H1]; · iexact H1
      isplitl [H2]; · iexact H2
      isplitl [H3]; · iexact H3
      isplitl [H4]; · iexact H4
      iexact HS
    iexact Hg
  exact BI.equiv_iff.mp ⟨h₁, h₂⟩

end Cert.KernelIdeal.Frm

end
-- ==== Proof.KI.R1RunA.lean ====
/-
  The aggregation pass at a point with k = 0 (the first block of a row of blocks): the accumulator is reset to zero,
  the product of the adjacency block and the feature block is added, nothing is stored into the result window, which
  is handed back as it was found. What the accumulator ends with is found by running the body: the pieces its stores
  leave, last first.
-/
import proofs.«144340_j48576080118434_1_alg».proof.Proof.KI.R1Kit

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at k = 0 on whole memrefs: the five input blocks at x0 … x4 (handed back untouched), the result
    window at any xi5 (handed back untouched), the accumulator at anything; it ends with the accumulator's pieces LS0
    written. -/
noncomputable def kernelRun1_A (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x1 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2048x128 .f32) (harg7 : arg7.IsWhole) (arg8 : Memref sig .tc .vmem S2048x128 .f32) (harg8 : arg8.IsWhole) (hc0 : cond1_0 i) (hc1 : ¬cond1_1 i)
    (x0 : Vec F S2048x1024 .f32) (x1 : Vec F S1024x128 .f32) (x2 : Vec F S2048x1 .f32) (x3 : Vec F S128x128 .f32) (x4 : Vec F S128 .f32) :
    Σ' (L5 : List (View.Piece (Elt F) S2048x128 .f32)), { LS0 : List (View.Piece (Elt F) S2048x128 .f32) //
      ∀ (xi5 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gc_kernel_body i arg2 harg2 arg3 harg3 arg4 harg4 arg5 harg5 arg6 harg6 arg7 harg7 arg8 harg8) K } := by
  refine ⟨[], ?_, fun xi5 E K => ?run⟩
  case run =>
    simp only [cc1__gc_kernel_body_eq_skeleton]; unfold cc1__gc_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Frm

end
-- ==== Proof.KI.R1RunB.lean ====
/-
  The aggregation pass at a point with 0 < k < 7: the product of the adjacency block and the feature block is added to
  the accumulator the point before left, nothing is stored into the result window, which is handed back as it was
  found.
-/
import proofs.«144340_j48576080118434_1_alg».proof.Proof.KI.R1RunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at 0 < k < 7 on whole memrefs: the five input blocks at x0 … x4 (handed back untouched), the result
    window at any xi5 (handed back untouched), the accumulator at xs0; it ends with the accumulator's pieces LS0
    written. -/
noncomputable def kernelRun1_B (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x1 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : ¬cond1_1 i)
    (x0 : Vec F S2048x1024 .f32) (x1 : Vec F S1024x128 .f32) (x2 : Vec F S2048x1 .f32) (x3 : Vec F S128x128 .f32) (x4 : Vec F S128 .f32) (xs0 : Vec F S2048x128 .f32) :
    Σ' (L5 : List (View.Piece (Elt F) S2048x128 .f32)), { LS0 : List (View.Piece (Elt F) S2048x128 .f32) //
      ∀ (xi5 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gc_kernel_body i arg2 harg2 arg3 harg3 arg4 harg4 arg5 harg5 arg6 harg6 arg7 harg7 arg8 harg8) K } := by
  refine ⟨[], ?_, fun xi5 E K => ?run⟩
  case run =>
    simp only [cc1__gc_kernel_body_eq_skeleton]; unfold cc1__gc_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Frm

end
-- ==== Proof.KI.R1RunC.lean ====
/-
  The aggregation pass at a point with k = 7 (the last block of a row of blocks): the product of the adjacency block
  and the feature block is added to the accumulator the point before left, and the result block (the completed
  accumulator scaled row by row by the normaliser, contracted against the weights, the bias added, clamped at zero
  from below) is stored into the result window, which the pipeline writes back after this point.
-/
import proofs.«144340_j48576080118434_1_alg».proof.Proof.KI.R1RunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at k = 7 on whole memrefs: the five input blocks at x0 … x4 (handed back untouched), the result
    window at anything, the accumulator at xs0; it ends with the result window's pieces L5 and the accumulator's
    pieces LS0 written. -/
noncomputable def kernelRun1_C (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x1 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x1024 .f32) (x1 : Vec F S1024x128 .f32) (x2 : Vec F S2048x1 .f32) (x3 : Vec F S128x128 .f32) (x4 : Vec F S128 .f32) (xs0 : Vec F S2048x128 .f32) :
    Σ' (L5 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__gc_kernel_body i arg2 harg2 arg3 harg3 arg4 harg4 arg5 harg5 arg6 harg6 arg7 harg7 arg8 harg8) K } := by
  refine ⟨?_, ?_, fun E K => ?run⟩
  case run =>
    simp only [cc1__gc_kernel_body_eq_skeleton]; unfold cc1__gc_kernel_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Frm

end
-- ==== Proof.KI.R1Frame.lean ====
/-
  The aggregation pass, all of it: what each of the body's three cases leaves in the accumulator and in the result
  window; what they hold after every point of the grid, by recursion on the point (the accumulator after point 8·i + k
  is the sum over k' ≤ k of the products of the adjacency blocks (i, k') with the feature blocks k'; the result block is
  stored at k = 7); the region's invariant, which carries the accumulator from one point to the next; the proof data;
  and the body's obligation at every point, by cases on k.
-/
import proofs.«144340_j48576080118434_1_alg».proof.Proof.KI.R1RunC

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At k = 0 nothing is stored into the result window: a placeholder nothing consults. -/
def out1_A_5 (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x1 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2048x128 .f32) (harg7 : arg7.IsWhole) (arg8 : Memref sig .tc .vmem S2048x128 .f32) (harg8 : arg8.IsWhole) (hc0 : cond1_0 i) (hc1 : ¬cond1_1 i)
    (x0 : Vec F S2048x1024 .f32) (x1 : Vec F S1024x128 .f32) (x2 : Vec F S2048x1 .f32) (x3 : Vec F S128x128 .f32) (x4 : Vec F S128 .f32) : Vec F S2048x128 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- At k = 0 the stores into the accumulator cover it. -/
theorem scover1_A_0 (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x1 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2048x128 .f32) (harg7 : arg7.IsWhole) (arg8 : Memref sig .tc .vmem S2048x128 .f32) (harg8 : arg8.IsWhole) (hc0 : cond1_0 i) (hc1 : ¬cond1_1 i)
    (x0 : Vec F S2048x1024 .f32) (x1 : Vec F S1024x128 .f32) (x2 : Vec F S2048x1 .f32) (x3 : Vec F S128x128 .f32) (x4 : Vec F S128 .f32) (y : S2048x128.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S2048x128.size (by sl_kernel_rfl) y

/-- What the point leaves in the accumulator at k = 0. -/
def sout1_A_0 (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x1 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2048x128 .f32) (harg7 : arg7.IsWhole) (arg8 : Memref sig .tc .vmem S2048x128 .f32) (harg8 : arg8.IsWhole) (hc0 : cond1_0 i) (hc1 : ¬cond1_1 i)
    (x0 : Vec F S2048x1024 .f32) (x1 : Vec F S1024x128 .f32) (x2 : Vec F S2048x1 .f32) (x3 : Vec F S128x128 .f32) (x4 : Vec F S128 .f32) : Vec F S2048x128 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- At 0 < k < 7 nothing is stored into the result window: a placeholder nothing consults. -/
def out1_B_5 (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x1 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : ¬cond1_1 i)
    (x0 : Vec F S2048x1024 .f32) (x1 : Vec F S1024x128 .f32) (x2 : Vec F S2048x1 .f32) (x3 : Vec F S128x128 .f32) (x4 : Vec F S128 .f32) (xs0 : Vec F S2048x128 .f32) : Vec F S2048x128 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

/-- At 0 < k < 7 the stores into the accumulator cover it. -/
theorem scover1_B_0 (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x1 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : ¬cond1_1 i)
    (x0 : Vec F S2048x1024 .f32) (x1 : Vec F S1024x128 .f32) (x2 : Vec F S2048x1 .f32) (x3 : Vec F S128x128 .f32) (x4 : Vec F S128 .f32) (xs0 : Vec F S2048x128 .f32) (y : S2048x128.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S2048x128.size (by sl_kernel_rfl) y

/-- What the point leaves in the accumulator at 0 < k < 7. -/
def sout1_B_0 (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x1 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : ¬cond1_1 i)
    (x0 : Vec F S2048x1024 .f32) (x1 : Vec F S1024x128 .f32) (x2 : Vec F S2048x1 .f32) (x3 : Vec F S128x128 .f32) (x4 : Vec F S128 .f32) (xs0 : Vec F S2048x128 .f32) : Vec F S2048x128 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

/-- At k = 7 the store into the result window covers its block. -/
theorem cover1_C_5 (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x1 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x1024 .f32) (x1 : Vec F S1024x128 .f32) (x2 : Vec F S2048x1 .f32) (x3 : Vec F S128x128 .f32) (x4 : Vec F S128 .f32) (xs0 : Vec F S2048x128 .f32) (y : S2048x128.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S2048x128.size (by sl_kernel_rfl) y

/-- What the point leaves in the result window at k = 7. -/
def out1_C_5 (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x1 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x1024 .f32) (x1 : Vec F S1024x128 .f32) (x2 : Vec F S2048x1 .f32) (x3 : Vec F S128x128 .f32) (x4 : Vec F S128 .f32) (xs0 : Vec F S2048x128 .f32) : Vec F S2048x128 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

/-- At k = 7 the stores into the accumulator cover it. -/
theorem scover1_C_0 (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x1 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x1024 .f32) (x1 : Vec F S1024x128 .f32) (x2 : Vec F S2048x1 .f32) (x3 : Vec F S128x128 .f32) (x4 : Vec F S128 .f32) (xs0 : Vec F S2048x128 .f32) (y : S2048x128.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S2048x128.size (by sl_kernel_rfl) y

/-- What the point leaves in the accumulator at k = 7. -/
def sout1_C_0 (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x1 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x1024 .f32) (x1 : Vec F S1024x128 .f32) (x2 : Vec F S2048x1 .f32) (x3 : Vec F S128x128 .f32) (x4 : Vec F S128 .f32) (xs0 : Vec F S2048x128 .f32) : Vec F S2048x128 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

/-! ## What the buffers hold after each point -/

/-- THE ACCUMULATION: the result window's staging buffer and the accumulator after the body at position n — the case
    k = n mod 8 selects, run at the point's memrefs and input blocks, over the accumulator position n − 1 left. -/
def outsAt1 (c : Dev nD) : (n : ℕ) → n < cfg1.N → Vec F S2048x128 .f32 × Vec F S2048x128 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      if h1 : (n + 1) % 8 = 7 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- The accumulation at a point with k = 0. -/
theorem outsAt1_A (c : Dev nD) (t : Fin cfg1.N) (h0 : t.val % 8 = 0) (h1 : ¬t.val % 8 = 7) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- The accumulation at a point with 0 < k < 7, over what the point before left. -/
theorem outsAt1_B (c : Dev nD) (t : Fin cfg1.N) (h0 : ¬t.val % 8 = 0) (h1 : ¬t.val % 8 = 7) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The accumulation at a point with k = 7, over what the point before left. -/
theorem outsAt1_C (c : Dev nD) (t : Fin cfg1.N) (h0 : ¬t.val % 8 = 0) (h1 : t.val % 8 = 7) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position n: at the first point the class invariant (every scoped buffer of the core that is no staging
    buffer here at anything, the generator register at some state); afterwards the same with the accumulator at what
    the point before left. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 c) ∗ (∃ r, prngReg c r)) := by
  cases n with
  | zero => exact absurd rfl hz
  | succ n => rfl

/-! ## The proof data -/

/-- The arrays as the region finds them; after the body at point t each input window's buffer at its block and the
    result window's at the accumulation's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body's obligation at a point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: every input window holds its block; k decides the case; the invariant hands the body the
    accumulator at what the point before left (at anything at k = 0 of the first point) and takes it back at this
    point's contents; the other scoped buffers and the generator register pass through; nothing is owed. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 8 = 0
  · by_cases h1 : t.val % 8 = 7
    · exfalso; omega
    · have hc0 : cond1_0 (grid1.coords t) := (hcond1_0 t).mpr h0
      have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t hc0 hc1) (noFlush1_5_A t hc0 hc1)]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hoth⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ hc0 hc1 (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ hc0 hc1 (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    · have hc0 : ¬cond1_0 (grid1.coords t) := fun h => h0 ((hcond1_0 t).mp h)
      have hc1 : cond1_1 (grid1.coords t) := (hcond1_1 t).mpr h1
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t hc0 hc1], after1_5]
      rw [outsAt1_C V c t h0 h1]
      unfold out1_C_5 sout1_C_0; (try dsimp only)
      have hz : t.val ≠ 0 := by omega
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ hc0 hc1 (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _)
    · have hc0 : ¬cond1_0 (grid1.coords t) := fun h => h0 ((hcond1_0 t).mp h)
      have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t hc0 hc1) (noFlush1_5_B t hc0 hc1)]
      rw [outsAt1_B V c t h0 h1]
      unfold sout1_B_0; (try dsimp only)
      have hz : t.val ≠ 0 := by omega
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ hc0 hc1 (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body's obligation at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hoth⟩, Hg⟩
  isplitl [HS0 Hoth]
  · isplitl [HS0]
    · iexists _; iexact HS0
    iexact Hoth
  iexact Hg

theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Frm

end
-- ==== Proof.KI.Launch.lean ====
/-
  The whole program's run: the degree pass, the host's scaling of the features' rows by the normaliser, the aggregation
  pass. The buffers' contents at each boundary are a fold from the launch memory: after the first region its arrays hold
  what its write-backs leave; after the two host operations the broadcast normaliser and the scaled features are added;
  after the second region the result array holds what its write-backs leave. Every execution terminates, the four
  argument arrays end as launched (no operation and no region writes one), and the result array ends at the second
  region's written-back blocks.
-/
import proofs.«144340_j48576080118434_1_alg».proof.Proof.KI.Fold0
import proofs.«144340_j48576080118434_1_alg».proof.Proof.KI.R1Frame

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the second region's exit -/

/-- At the second region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (V2 m) c).arrAt_in 0 rfl _).trans (A_eq1 (V2 m) c 0))
    _ = W1 m c (Proc.devRef .tc main_arg0) := W2_keep m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_keep m c main_arg1 (by decide)
    _ = W0 m c (Proc.devRef .tc main_arg1) := W1_of_ne m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := (W3_arr m c 3).trans (((dat1 (V2 m) c).arrAt_in 3 rfl _).trans (A_eq1 (V2 m) c 3))
    _ = W1 m c (Proc.devRef .tc main_arg2) := W2_keep m c main_arg2 (by decide)
    _ = W0 m c (Proc.devRef .tc main_arg2) := W1_of_ne m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := (W3_arr m c 4).trans (((dat1 (V2 m) c).arrAt_in 4 rfl _).trans (A_eq1 (V2 m) c 4))
    _ = W1 m c (Proc.devRef .tc main_arg3) := W2_keep m c main_arg3 (by decide)
    _ = W0 m c (Proc.devRef .tc main_arg3) := W1_of_ne m c main_arg3 (by decide)
    _ = m ((c : Thread nD τ).loc main_arg3) := rfl
/-- The result array ends at the second region's written-back blocks. -/
theorem W3_main_v3 (c : Dev nD) : W3 m c (Proc.devRef .tc main_v3) = (dat1 (V2 m) c).arrAt 5 cfg1.N := W3_arr m c 5

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The degree pass over the thread state: entered from every unscoped buffer at the launch contents, left with its
    arrays at what it wrote back. The generator register and the scoped rest go into the region's invariant and come back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec0 c ⊢ (pdats m 0 c).Φ 0 from hin0 (V0 m) c)
    unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation pass over the thread state: entered from the buffers after the host operations, left with its
    arrays at what it wrote back (what the launch reads at the end). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m 1 c).Φ 0 from hin1 (V2 m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .host (hseg hostOps1 hostOps1_sub hostOps1_fresh' (W1 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution terminates, nothing faulting, and every
    final state holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The run read at the result and the arguments: the result array at the second region's written-back blocks, the
    four arguments as launched. -/
theorem run_result : θ_run defs (onTc (τ := τ) (main (F := F))) ⟨m, fun _ => 0, ρ⟩ (fun r => ∀ c : Dev nD,
      r.2.mem ((c.tc : Thread nD τ).loc main_v3) = (dat1 (V2 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v3 (by decide))).trans (W3_main_v3 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_main m ρ)

/-- The frame: every execution terminates and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_result m ρ)

end Cert.KernelIdeal.Frm

end
-- ==== Proof.Spec.lean ====
/-
  The two programs' results as functions of plain coordinates, over the extended reals.

  A graph-convolution layer with a symmetrically degree-normalised adjacency: with s r = Σ_j A r j the row sums and
  d = s^(-1/2), the kernel computes  max (Σ_f ((Σ_j A r j · (X j f · d j)) · d r) · W f o + b o) 0  — it scales the rows of
  X by d first, contracts against A, and scales the result's rows by d afterwards —, while the reference computes
  max (Σ_f (Σ_j ((A r j · d r) · d j) · X j f) · W f o + b o) 0  — it normalises the adjacency first. The kernel takes
  d r as the reciprocal square root of s r, the reference as 1 / sqrt (s r).
  On the extended reals the two differ where a row sum is zero or negative (the reciprocal square root of a negative is
  the bottom element, while 1 / sqrt of it is 1 / ⊥ = 0; and at an infinite d r a factor cannot be moved across a sum);
  where every entry is a real number and every row sum is positive, d r is the positive real (√(s r))⁻¹ on both sides and
  the two are one real number by distributivity and commutativity.
-/
import Idealize.ShloMosaic.PureOps.Ideal
import Idealize.ShloMosaic.Lib.ValueIdx
import Mathlib.Algebra.BigOperators.Ring.Finset
import Mathlib.Analysis.SpecialFunctions.Pow.Real

noncomputable section

namespace Cert.Spec

open Idealize.ShloMosaic

variable (A : Fin 8192 → Fin 8192 → EReal) (X : Fin 8192 → Fin 128 → EReal) (W : Fin 128 → Fin 128 → EReal) (b : Fin 128 → EReal)

/-- The degree of node r: the sum of row r of the adjacency. -/
def rowsum (r : Fin 8192) : EReal := ∑ j : Fin 8192, A r j

/-- The kernel's normaliser: the reciprocal square root of the degree. -/
def dK (r : Fin 8192) : EReal := Ideal.rsqrt (rowsum A r)

/-- The reference's normaliser: one over the square root of the degree. -/
def dR (r : Fin 8192) : EReal := Ideal.div 1 (Ideal.sqrt (rowsum A r))

/-- The kernel's aggregate at (r, f): the adjacency row against the pre-scaled features, scaled afterwards. -/
def aggK (r : Fin 8192) (f : Fin 128) : EReal := (∑ j : Fin 8192, A r j * (X j f * dK A j)) * dK A r

/-- The reference's aggregate at (r, f): the normalised adjacency row against the features. -/
def aggR (r : Fin 8192) (f : Fin 128) : EReal := ∑ j : Fin 8192, ((A r j * dR A r) * dR A j) * X j f

/-- The kernel's result at (r, o). -/
def outK (r : Fin 8192) (o : Fin 128) : EReal := max ((∑ f : Fin 128, aggK A X r f * W f o) + b o) 0

/-- The reference's result at (r, o). -/
def outR (r : Fin 8192) (o : Fin 128) : EReal := max ((∑ f : Fin 128, aggR A X r f * W f o) + b o) 0

/-! ## The same over whole arrays -/

/-- A rank-2 array read at plain coordinates. -/
abbrev at2 {n0 n1 : Nat} (v : (⟨2, ![n0, n1]⟩ : Shape).Idx → EReal) : Fin n0 → Fin n1 → EReal := fun a c => v (ValueIdx.ix2 a c)
/-- A rank-1 array read at a plain coordinate. -/
abbrev at1 {n : Nat} (v : (⟨1, ![n]⟩ : Shape).Idx → EReal) : Fin n → EReal := fun a => v (ValueIdx.ix1 a)

/-- The kernel's result array, index by index. -/
def GK (A : (⟨2, ![8192, 8192]⟩ : Shape).Idx → EReal) (X : (⟨2, ![8192, 128]⟩ : Shape).Idx → EReal)
    (W : (⟨2, ![128, 128]⟩ : Shape).Idx → EReal) (b : (⟨1, ![128]⟩ : Shape).Idx → EReal) : (⟨2, ![8192, 128]⟩ : Shape).Idx → EReal :=
  fun i => outK (at2 A) (at2 X) (at2 W) (at1 b) (i 0) (i 1)

/-- The reference's result array, index by index. -/
def GR (A : (⟨2, ![8192, 8192]⟩ : Shape).Idx → EReal) (X : (⟨2, ![8192, 128]⟩ : Shape).Idx → EReal)
    (W : (⟨2, ![128, 128]⟩ : Shape).Idx → EReal) (b : (⟨1, ![128]⟩ : Shape).Idx → EReal) : (⟨2, ![8192, 128]⟩ : Shape).Idx → EReal :=
  fun i => outR (at2 A) (at2 X) (at2 W) (at1 b) (i 0) (i 1)

end Cert.Spec

end
-- ==== Proof.Val.R0Value.lean ====
/-
  What the degree pass writes back, at the extended reals: entry (r, 0) of its 8192 × 1 result is the reciprocal square
  root of the sum of row r of the adjacency. The running sums after point 8·i + k hold, at row p, the sum of the entries
  (2048·i + p, j) over the columns j < 1024·(k + 1) — each point adds its block's row sums to what the point before left,
  the first point of a row of blocks starting from zero —, so at k = 7 they are the whole row sums, whose reciprocal
  square roots are stored and written back as block i of the result; the four blocks tile it.
-/
import proofs.«144340_j48576080118434_1_alg».proof.Proof.KI.R0Frame
import proofs.«144340_j48576080118434_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem
open Idealize.ShloMosaic.Pipeline (Dat)

namespace R0

/-! ## What each case's stores leave, as the body's arithmetic of the point's block and the sums found -/

section Pieces
variable {F : FTy → Type} [FloatOps F]

/-- Both offsets of a whole-buffer rectangle are zero. -/
theorem hz : (![0, 0] : Fin 2 → Nat) = fun _ => 0 := funext fun a => by fin_cases a <;> rfl

/-- At k = 0 the running sums are reset to zero and the block's row sums added: they end at 0 + (row sums of x0). -/
theorem sout_A (c : Dev nD) (i : grid0.Coords) (a2 : Memref sig .tc .vmem S2048x1024 .f32) (h2 : a2.IsWhole)
    (a3 : Memref sig .tc .vmem S2048x1 .f32) (h3 : a3.IsWhole) (a4 : Memref sig .tc .vmem S2048x1 .f32) (h4 : a4.IsWhole)
    (hc0 : cond0_0 i) (hc1 : ¬cond0_1 i) (x0 : Vec F S2048x1024 .f32) :
    sout0_A_0 c i a2 h2 a3 h3 a4 h4 hc0 hc1 x0 = k0_pay2 (k0_pay1 (F := F)) x0 := by
  unfold sout0_A_0
  rw [View.read_writes_eq_canon _ _ _ (scover0_A_0 c i a2 h2 a3 h3 a4 h4 hc0 hc1 x0)]
  unfold kernelRun0_A
  dsimp only
  sl_unfold_words
  rw [View.canon_cons_unit_zero (S := S2048x1) hz, View.readCov_unit_zero (S := S2048x1) _ hz]
  simp only [View.readAt_eq_ld, h2.read_unread, View.ld_unit_zero (S := S2048x1024) hz]

/-- At 0 < k < 7 the block's row sums are added to the sums found: xs0 + (row sums of x0). -/
theorem sout_B (c : Dev nD) (i : grid0.Coords) (a2 : Memref sig .tc .vmem S2048x1024 .f32) (h2 : a2.IsWhole)
    (a3 : Memref sig .tc .vmem S2048x1 .f32) (h3 : a3.IsWhole) (a4 : Memref sig .tc .vmem S2048x1 .f32) (h4 : a4.IsWhole)
    (hc0 : ¬cond0_0 i) (hc1 : ¬cond0_1 i) (x0 : Vec F S2048x1024 .f32) (xs0 : Vec F S2048x1 .f32) :
    sout0_B_0 c i a2 h2 a3 h3 a4 h4 hc0 hc1 x0 xs0 = k0_pay2 xs0 x0 := by
  unfold sout0_B_0
  rw [View.read_writes_eq_canon _ _ _ (scover0_B_0 c i a2 h2 a3 h3 a4 h4 hc0 hc1 x0 xs0)]
  unfold kernelRun0_B
  dsimp only
  sl_unfold_words
  rw [View.canon_unit_zero hz]
  simp only [View.readAt_eq_ld, h2.read_unread, h4.read_unread, View.ld_unit_zero (S := S2048x1024) hz,
    View.ld_unit_zero (S := S2048x1) hz]

/-- At k = 7 the running sums end the same way: xs0 + (row sums of x0). -/
theorem sout_C (c : Dev nD) (i : grid0.Coords) (a2 : Memref sig .tc .vmem S2048x1024 .f32) (h2 : a2.IsWhole)
    (a3 : Memref sig .tc .vmem S2048x1 .f32) (h3 : a3.IsWhole) (a4 : Memref sig .tc .vmem S2048x1 .f32) (h4 : a4.IsWhole)
    (hc0 : ¬cond0_0 i) (hc1 : cond0_1 i) (x0 : Vec F S2048x1024 .f32) (xs0 : Vec F S2048x1 .f32) :
    sout0_C_0 c i a2 h2 a3 h3 a4 h4 hc0 hc1 x0 xs0 = k0_pay2 xs0 x0 := by
  unfold sout0_C_0
  rw [View.read_writes_eq_canon _ _ _ (scover0_C_0 c i a2 h2 a3 h3 a4 h4 hc0 hc1 x0 xs0)]
  unfold kernelRun0_C
  dsimp only
  sl_unfold_words
  rw [View.canon_unit_zero hz]
  simp only [View.readAt_eq_ld, h2.read_unread, h4.read_unread, View.ld_unit_zero (S := S2048x1024) hz,
    View.ld_unit_zero (S := S2048x1) hz]

/-- At k = 7 the result window receives the reciprocal square roots of the completed sums. -/
theorem out_C (c : Dev nD) (i : grid0.Coords) (a2 : Memref sig .tc .vmem S2048x1024 .f32) (h2 : a2.IsWhole)
    (a3 : Memref sig .tc .vmem S2048x1 .f32) (h3 : a3.IsWhole) (a4 : Memref sig .tc .vmem S2048x1 .f32) (h4 : a4.IsWhole)
    (hc0 : ¬cond0_0 i) (hc1 : cond0_1 i) (x0 : Vec F S2048x1024 .f32) (xs0 : Vec F S2048x1 .f32) :
    out0_C_1 c i a2 h2 a3 h3 a4 h4 hc0 hc1 x0 xs0 = k0_pay3 (k0_pay2 xs0 x0) := by
  unfold out0_C_1
  rw [View.read_writes_eq_canon _ _ _ (cover0_C_1 c i a2 h2 a3 h3 a4 h4 hc0 hc1 x0 xs0)]
  unfold kernelRun0_C
  dsimp only
  sl_unfold_words
  rw [View.canon_unit_zero hz, View.readCov_unit_zero (S := S2048x1) _ hz]
  simp only [View.readAt_eq_ld, h2.read_unread, h4.read_unread, View.ld_unit_zero (S := S2048x1024) hz,
    View.ld_unit_zero (S := S2048x1) hz]

end Pieces

/-! ## The body's arithmetic at an index, at the extended reals -/

section Payloads

open Idealize.ShloMosaic.ValueIdx

/-- A vector of length a viewed as a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reset value is zero everywhere. -/
theorem pay1_apply (j : S2048x1.Idx) : (k0_pay1 (F := Ideal)) j = 0 := by
  unfold k0_pay1
  refine (congrFun (shapeCast_self _ _) j).trans ?_
  exact Ideal.ofBits_zero_f32

/-- The sum along a block's row p is the sum of its 1024 entries (p, q). -/
theorem rowsum_apply (x : FVec Ideal S2048x1024 .f32) (p : Fin 2048) :
    multiReduction (F := Ideal) .add [1] S2048 x 0x00000000#32 reduces_S2048x1024_S2048 (.inl rfl) rfl (ix1 p)
      = ∑ q : Fin 1024, x (ix2 p q) := by
  refine (Ideal.multiReduction_add_single x 0x00000000#32 reduces_S2048x1024_S2048 (.inl rfl) rfl (ix1 p)).trans ?_
  show ∑ q : Fin 1024, x (reduces_S2048x1024_S2048.lift (ix1 p) q) = _
  refine Finset.sum_congr rfl fun q _ => congrArg x ?_
  funext a; apply Fin.ext
  match a with
  | ⟨0, _⟩ => rfl
  | ⟨1, _⟩ => rfl

/-- The update at row p: what was there plus the block's row sum. -/
theorem pay2_apply (xs : FVec Ideal S2048x1 .f32) (x : FVec Ideal S2048x1024 .f32) (p : Fin 2048) :
    (k0_pay2 (F := Ideal) xs x) (ix2 p (0 : Fin 1)) = xs (ix2 p (0 : Fin 1)) + ∑ q : Fin 1024, x (ix2 p q) := by
  unfold k0_pay2
  refine (congrFun (shapeCast_self _ _) _).trans ?_
  refine congrArg (xs (ix2 p (0 : Fin 1)) + ·) ?_
  refine (shapeCast_a_a1_apply _ _ p (0 : Fin 1)).trans ?_
  exact rowsum_apply x p

/-- The stored result is the reciprocal square root, entry by entry. -/
theorem pay3_apply (v : FVec Ideal S2048x1 .f32) (j : S2048x1.Idx) : (k0_pay3 (F := Ideal) v) j = Ideal.rsqrt (v j) := rfl

end Payloads

end R0

variable (V : (c : Dev nD) → (b : Ref sig .tc) → Buf (Elt Ideal) ((c : Thread nD τ).loc b))

namespace R0

/-! ## The adjacency block of a point, entry by entry -/

section Blocks

open Idealize.ShloMosaic.ValueIdx

/-- The adjacency block the point reads, at its literal type. -/
abbrev ablk (c : Dev nD) (t : Fin cfg0.N) : FVec Ideal S2048x1024 .f32 := iblk0 V c 0 t
/-- The adjacency as the region finds it, at its literal type. -/
abbrev aarr (c : Dev nD) : FVec Ideal S8192x8192 .f32 := V c main_arg0

/-- Point t = 8·i + k reads block (i, k) of the adjacency and writes block (i, 0) of the result. -/
theorem idx_facts0 : ∀ t : Fin cfg0.N, win0_0.index t (0 : Fin 2) = t.val / 8 ∧ win0_0.index t (1 : Fin 2) = t.val % 8
    ∧ win0_1.index t (0 : Fin 2) = t.val / 8 ∧ win0_1.index t (1 : Fin 2) = 0 :=
  (by decide +kernel : ∀ t : Fin grid0.N, _)

/-- Entry (p, q) of the block at point t is entry (2048·(t / 8) + p, 1024·(t % 8) + q) of the adjacency. -/
theorem ablk_apply (c : Dev nD) (t : Fin cfg0.N) (p : Fin 2048) (q : Fin 1024) (r j : Fin 8192)
    (hr : r.val = 2048 * (t.val / 8) + p.val) (hj : j.val = 1024 * (t.val % 8) + q.val) :
    ablk V c t (ix2 p q) = aarr V c (ix2 r j) := by
  obtain ⟨e0, e1, -, -⟩ := idx_facts0 t
  show iblk0 V c 0 t (ix2 p q) = _
  unfold iblk0
  rw [View.read_apply]
  show V c main_arg0 _ = V c main_arg0 _
  congr 1
  funext a
  apply Fin.ext
  match a with
  | ⟨0, _⟩ => show win0_0.index t (0 : Fin 2) * 2048 + 1 * p.val = r.val; rw [e0, hr]; omega
  | ⟨1, _⟩ => show win0_0.index t (1 : Fin 2) * 1024 + 1 * q.val = j.val; rw [e1, hj]; omega

end Blocks

/-! ## The running sums after every point -/

section Sums

open Idealize.ShloMosaic.ValueIdx

/-- Row r of the adjacency by natural column number, zero past the last column. -/
def rowN (c : Dev nD) (r : Fin 8192) (n : ℕ) : EReal := if h : n < 8192 then aarr V c (ix2 r ⟨n, h⟩) else 0

/-- Row p of the block at point t sums the 1024 entries of the adjacency's row 2048·(t / 8) + p from column
    1024·(t % 8) on. -/
theorem blk_rowsum (c : Dev nD) (t : Fin cfg0.N) (p : Fin 2048) (r : Fin 8192) (hr : r.val = 2048 * (t.val / 8) + p.val) :
    ∑ q : Fin 1024, ablk V c t (ix2 p q) = ∑ x ∈ Finset.range 1024, rowN V c r (1024 * (t.val % 8) + x) := by
  rw [Finset.sum_range]
  refine Finset.sum_congr rfl fun q _ => ?_
  have hb : 1024 * (t.val % 8) + q.val < 8192 := by have := q.isLt; omega
  unfold rowN
  rw [dif_pos hb]
  exact ablk_apply V c t p q r ⟨_, hb⟩ hr rfl

/-- At k = 0 the running sums restart: row p holds the first 1024 entries' sum. -/
theorem sums_first (c : Dev nD) (t : Fin cfg0.N) (h0 : t.val % 8 = 0) (p : Fin 2048) (r : Fin 8192)
    (hr : r.val = 2048 * (t.val / 8) + p.val) :
    (outsAt0 V c t.val t.isLt).2 (ix2 p (0 : Fin 1)) = ∑ x ∈ Finset.range (1024 * (t.val % 8 + 1)), rowN V c r x := by
  have h1 : ¬t.val % 8 = 7 := by omega
  rw [outsAt0_A V c t h0 h1]
  dsimp only
  refine (congrFun (sout_A (F := Ideal) c (grid0.coords t) (ms0_0 t) (hs0_0 t) (ms0_1 t) (hs0_1 t) scM0_0
    (Memref.isWhole_whole _) ((hcond0_0 t).mpr h0) (fun h => h1 ((hcond0_1 t).mp h)) (ablk V c t)) (ix2 p (0 : Fin 1))).trans ?_
  refine (pay2_apply (k0_pay1 (F := Ideal)) (ablk V c t) p).trans ?_
  rw [pay1_apply, zero_add, blk_rowsum V c t p r hr, h0]
  simp only [Nat.mul_zero, Nat.zero_add, Nat.mul_one]

/-- At k > 0 the block's row sums are added to what the point before left. -/
theorem sums_next (c : Dev nD) (t : Fin cfg0.N) (h0 : ¬t.val % 8 = 0) (p : Fin 2048) (r : Fin 8192)
    (hr : r.val = 2048 * (t.val / 8) + p.val)
    (ih : (outsAt0 V c (t.val - 1) (Nat.lt_of_le_of_lt (Nat.sub_le _ _) t.isLt)).2 (ix2 p (0 : Fin 1))
      = ∑ x ∈ Finset.range (1024 * (t.val % 8)), rowN V c r x) :
    (outsAt0 V c t.val t.isLt).2 (ix2 p (0 : Fin 1)) = ∑ x ∈ Finset.range (1024 * (t.val % 8 + 1)), rowN V c r x := by
  have e : 1024 * (t.val % 8 + 1) = 1024 * (t.val % 8) + 1024 := by omega
  by_cases h1 : t.val % 8 = 7
  · rw [outsAt0_C V c t h0 h1]
    dsimp only
    refine (congrFun (sout_C (F := Ideal) c (grid0.coords t) (ms0_0 t) (hs0_0 t) (ms0_1 t) (hs0_1 t) scM0_0
      (Memref.isWhole_whole _) (fun h => h0 ((hcond0_0 t).mp h)) ((hcond0_1 t).mpr h1) (ablk V c t)
      (outsAt0 V c (t.val - 1) (Nat.lt_of_le_of_lt (Nat.sub_le _ _) t.isLt)).2) (ix2 p (0 : Fin 1))).trans ?_
    refine (pay2_apply (outsAt0 V c (t.val - 1) (Nat.lt_of_le_of_lt (Nat.sub_le _ _) t.isLt)).2 (ablk V c t) p).trans ?_
    rw [ih, blk_rowsum V c t p r hr, e, Finset.sum_range_add]
  · rw [outsAt0_B V c t h0 h1]
    dsimp only
    refine (congrFun (sout_B (F := Ideal) c (grid0.coords t) (ms0_0 t) (hs0_0 t) (ms0_1 t) (hs0_1 t) scM0_0
      (Memref.isWhole_whole _) (fun h => h0 ((hcond0_0 t).mp h)) (fun h => h1 ((hcond0_1 t).mp h)) (ablk V c t)
      (outsAt0 V c (t.val - 1) (Nat.lt_of_le_of_lt (Nat.sub_le _ _) t.isLt)).2) (ix2 p (0 : Fin 1))).trans ?_
    refine (pay2_apply (outsAt0 V c (t.val - 1) (Nat.lt_of_le_of_lt (Nat.sub_le _ _) t.isLt)).2 (ablk V c t) p).trans ?_
    rw [ih, blk_rowsum V c t p r hr, e, Finset.sum_range_add]

/-- After point n = 8·i + k, row p of the running sums holds the sum of the first 1024·(k + 1) entries of the
    adjacency's row 2048·i + p. -/
theorem sums_at (c : Dev nD) : ∀ (n : ℕ) (hn : n < cfg0.N) (p : Fin 2048) (r : Fin 8192), r.val = 2048 * (n / 8) + p.val →
    (outsAt0 V c n hn).2 (ix2 p (0 : Fin 1)) = ∑ x ∈ Finset.range (1024 * (n % 8 + 1)), rowN V c r x
  | 0, hn, p, r, hr => sums_first V c ⟨0, hn⟩ rfl p r hr
  | n + 1, hn, p, r, hr => by
    by_cases h0 : (n + 1) % 8 = 0
    · exact sums_first V c ⟨n + 1, hn⟩ h0 p r hr
    · refine sums_next V c ⟨n + 1, hn⟩ h0 p r hr ?_
      have e : (n + 1) % 8 = n % 8 + 1 := by omega
      rw [show (⟨n + 1, hn⟩ : Fin cfg0.N).val % 8 = n % 8 + 1 from e]
      exact sums_at c n (Nat.lt_of_succ_lt hn) p r (by omega)

end Sums

/-! ## What is written back, and the array it leaves -/

section Result

open Idealize.ShloMosaic.ValueIdx

/-- A row's degree is the sum of all 8192 entries by column number. -/
theorem rowsum_eq (c : Dev nD) (r : Fin 8192) :
    Cert.Spec.rowsum (Cert.Spec.at2 (aarr V c)) r = ∑ x ∈ Finset.range 8192, rowN V c r x := by
  rw [Finset.sum_range]
  unfold Cert.Spec.rowsum
  refine Finset.sum_congr rfl fun j _ => ?_
  unfold rowN
  rw [dif_pos j.isLt]

/-- At k = 7 the running sums end at the update of what the point before left … -/
theorem snd_last (c : Dev nD) (t : Fin cfg0.N) (h0 : ¬t.val % 8 = 0) (h7 : t.val % 8 = 7) :
    (outsAt0 V c t.val t.isLt).2
      = k0_pay2 (F := Ideal) (outsAt0 V c (t.val - 1) (Nat.lt_of_le_of_lt (Nat.sub_le _ _) t.isLt)).2 (ablk V c t) := by
  rw [outsAt0_C V c t h0 h7]
  dsimp only
  exact sout_C (F := Ideal) c (grid0.coords t) (ms0_0 t) (hs0_0 t) (ms0_1 t) (hs0_1 t) scM0_0
    (Memref.isWhole_whole _) (fun h => h0 ((hcond0_0 t).mp h)) ((hcond0_1 t).mpr h7) (ablk V c t)
    (outsAt0 V c (t.val - 1) (Nat.lt_of_le_of_lt (Nat.sub_le _ _) t.isLt)).2

/-- … and the result window receives the reciprocal square roots of exactly those sums. -/
theorem fst_last (c : Dev nD) (t : Fin cfg0.N) (h0 : ¬t.val % 8 = 0) (h7 : t.val % 8 = 7) :
    (outsAt0 V c t.val t.isLt).1
      = k0_pay3 (F := Ideal) (k0_pay2 (F := Ideal) (outsAt0 V c (t.val - 1) (Nat.lt_of_le_of_lt (Nat.sub_le _ _) t.isLt)).2 (ablk V c t)) := by
  rw [outsAt0_C V c t h0 h7]
  dsimp only
  exact out_C (F := Ideal) c (grid0.coords t) (ms0_0 t) (hs0_0 t) (ms0_1 t) (hs0_1 t) scM0_0
    (Memref.isWhole_whole _) (fun h => h0 ((hcond0_0 t).mp h)) ((hcond0_1 t).mpr h7) (ablk V c t)
    (outsAt0 V c (t.val - 1) (Nat.lt_of_le_of_lt (Nat.sub_le _ _) t.isLt)).2

/-- So at k = 7 row p of the result window holds the kernel's normaliser of the adjacency's row 2048·(t / 8) + p. -/
theorem out_at (c : Dev nD) (t : Fin cfg0.N) (h7 : t.val % 8 = 7) (p : Fin 2048) (u : Fin 1) (r : Fin 8192)
    (hr : r.val = 2048 * (t.val / 8) + p.val) :
    (outsAt0 V c t.val t.isLt).1 (ix2 p u) = Cert.Spec.dK (Cert.Spec.at2 (aarr V c)) r := by
  have h0 : ¬t.val % 8 = 0 := by omega
  obtain rfl : u = 0 := Subsingleton.elim _ _
  rw [fst_last V c t h0 h7, ← snd_last V c t h0 h7]
  refine (pay3_apply _ _).trans ?_
  rw [sums_at V c t.val t.isLt p r hr, h7]
  unfold Cert.Spec.dK
  rw [rowsum_eq]

/-- The result array the write-backs are blocks of. -/
abbrev G0 (c : Dev nD) : FVec Ideal S8192x1 .f32 := fun i => Cert.Spec.dK (Cert.Spec.at2 (aarr V c)) (i 0)

/-- What a writing point (k = 7) writes back is its block of that array: rows 2048·(t / 8) … 2048·(t / 8) + 2047. -/
theorem flushed_eq (c : Dev nD) (t : Fin cfg0.N) (hf : (cfg0.win 1).flush t = true) :
    (dat0 (F := Ideal) V c).flushed 1 t = ((cfg0.win 1).blk t).view.read (Elt Ideal) (G0 V c) := by
  have h7 : t.val % 8 = 7 := (flush0_1 t).mp hf
  obtain ⟨-, -, e0, e1⟩ := idx_facts0 t
  show (cfg0.win 1).cut (grid0.coords t) ((dat0 V c).after 1 t) = _
  rw [after0_1]
  funext y
  rw [View.read_apply]
  show (outsAt0 V c t.val t.isLt).1 y = G0 V c (((cfg0.win 1).blk t).view.emb y)
  obtain ⟨p, u, rfl⟩ : ∃ (p : Fin 2048) (u : Fin 1), y = ix2 p u := ⟨y 0, y 1, eq_ix2 y⟩
  have hN : t.val < 32 := lt_of_lt_of_eq t.isLt N_0
  have hb : 2048 * (t.val / 8) + p.val < 8192 := by have := p.isLt; omega
  refine (out_at V c t h7 p u ⟨_, hb⟩ rfl).trans ?_
  refine congrArg (Cert.Spec.dK (Cert.Spec.at2 (aarr V c))) (Fin.ext ?_)
  show 2048 * (t.val / 8) + p.val = win0_1.index t (0 : Fin 2) * 2048 + 1 * p.val
  rw [e0]; omega

/-- An index of the result is in point t's block iff each coordinate is in the block's range on its axis. -/
theorem mem_blk1 (t : Fin cfg0.N) (i : S8192x1.Idx) :
    i ∈ ((cfg0.win 1).blk t).view.set ↔ ∀ a : Fin 2, win0_1.index t a * S2048x1.size a ≤ (i a).val
      ∧ (i a).val < win0_1.index t a * S2048x1.size a + S2048x1.size a := by
  show i ∈ ((View.whole main_v0).slice (win0_1.rect t)).set ↔ _
  rw [View.set_slice_whole, Rect.mem_set_unit]
  exact Iff.rfl

/-- Row r of the result is written back by the last point of its row of blocks, t = 8·(r / 2048) + 7. -/
theorem cover0 (i : S8192x1.Idx) : ∃ t : Fin cfg0.N, (cfg0.win 1).flush t = true ∧ i ∈ ((cfg0.win 1).blk t).view.set := by
  have hi0 : (i 0).val < 8192 := (i 0).isLt
  have hi1 : (i 1).val < 1 := (i 1).isLt
  have hlt : 8 * ((i 0).val / 2048) + 7 < cfg0.N := by rw [show cfg0.N = 32 from N_0]; omega
  obtain ⟨t, ht⟩ : ∃ t : Fin cfg0.N, t.val = 8 * ((i 0).val / 2048) + 7 := ⟨⟨_, hlt⟩, rfl⟩
  obtain ⟨-, -, e0, e1⟩ := idx_facts0 t
  refine ⟨t, (flush0_1 t).mpr (by omega), ?_⟩
  rw [mem_blk1]
  intro a
  match a with
  | ⟨0, _⟩ =>
    show win0_1.index t (0 : Fin 2) * 2048 ≤ (i 0).val ∧ (i 0).val < win0_1.index t (0 : Fin 2) * 2048 + 2048
    rw [e0]; omega
  | ⟨1, _⟩ =>
    show win0_1.index t (1 : Fin 2) * 1 ≤ (i 1).val ∧ (i 1).val < win0_1.index t (1 : Fin 2) * 1 + 1
    rw [e1]; omega

end Result

end R0

/-- The degree pass's result array after the run, index by index. -/
theorem arrAt0_1 (c : Dev nD) :
    (dat0 (F := Ideal) V c).arrAt 1 cfg0.N
      = fun i : S8192x1.Idx => Cert.Spec.dK (Cert.Spec.at2 (V c main_arg0)) (i 0) := by
  exact (dat0 (F := Ideal) V c).arrAt_eq_of_cover 1 (R0.G0 V c) (R0.flushed_eq V c) R0.cover0

end Cert.KernelIdeal.Val

end
-- ==== Proof.Val.Mid.lean ====
/-
  What the aggregation pass finds in its input arrays, at the extended reals, in terms of the launch memory: the
  adjacency, the weights and the bias as launched (nothing before it writes them); the normaliser as the degree pass
  left it, entry (r, 0) the reciprocal square root of the adjacency's row sum r; and the features scaled by the host,
  entry (j, f) the launched feature times the normaliser of row j.
-/
import proofs.«144340_j48576080118434_1_alg».proof.Proof.KI.Fold0
import proofs.«144340_j48576080118434_1_alg».proof.Proof.Val.R0Value
import proofs.«144340_j48576080118434_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.StableHlo
open Idealize.ShloMosaic.Pipeline (Dat)

section AnyF
variable {F : FTy → Type} [FloatOps F]
variable (m : (ℓ : Loc nD τ sig) → Buf (Elt F) ℓ)

/-- The adjacency reaches the second region as launched: the degree pass only reads it, the host writes elsewhere. -/
theorem V2_arg0 (c : Dev nD) : V2 m c main_arg0 = m ((c : Thread nD τ).loc main_arg0) :=
  (W2_keep m c main_arg0 (by decide)).trans ((W1_arr m c 0).trans (((dat0 (V0 m) c).arrAt_in 0 rfl _).trans (A_eq0 (V0 m) c 0)))
theorem V1_arg1 (c : Dev nD) : V1 m c main_arg1 = m ((c : Thread nD τ).loc main_arg1) := W1_of_ne m c main_arg1 (by decide)
theorem V2_arg2 (c : Dev nD) : V2 m c main_arg2 = m ((c : Thread nD τ).loc main_arg2) :=
  (W2_keep m c main_arg2 (by decide)).trans (W1_of_ne m c main_arg2 (by decide))
theorem V2_arg3 (c : Dev nD) : V2 m c main_arg3 = m ((c : Thread nD τ).loc main_arg3) :=
  (W2_keep m c main_arg3 (by decide)).trans (W1_of_ne m c main_arg3 (by decide))
/-- The normaliser reaches it as the degree pass wrote it back. -/
theorem V2_v0 (c : Dev nD) : V2 m c main_v0 = (dat0 (V0 m) c).arrAt 1 cfg0.N :=
  (W2_keep m c main_v0 (by decide)).trans (W1_arr m c 1)
theorem V1_v0 (c : Dev nD) : V1 m c main_v0 = (dat0 (V0 m) c).arrAt 1 cfg0.N := W1_arr m c 1
/-- The scaled features: the launched features times the normaliser broadcast along the feature axis. -/
theorem V2_v2 (c : Dev nD) : (V2 m c main_v2 : (⟨S8192x128, .f32⟩ : BufTy).Contents (Elt F))
    = mulf (V1 m c main_arg1) (broadcastInDim S8192x128 ![0, 1] bcast_S8192x1_S8192x128_0_1 (V1 m c main_v0)) := by
  show StableHlo.after hostOps1 (W1 m c) (Proc.devRef .tc main_v2) = _
  after_results

end AnyF

variable (m : (ℓ : Loc nD τ sig) → Buf (Elt Ideal) ℓ)

/-- The launched adjacency, features, weights and bias, and what the second region finds as the scaled features and
    the normaliser, each as an array of extended reals of its literal shape. -/
abbrev arrA (c : Dev nD) : FVec Ideal S8192x8192 .f32 := m ((c : Thread nD τ).loc main_arg0)
abbrev arrX (c : Dev nD) : FVec Ideal S8192x128 .f32 := m ((c : Thread nD τ).loc main_arg1)
abbrev arrW (c : Dev nD) : FVec Ideal S128x128 .f32 := m ((c : Thread nD τ).loc main_arg2)
abbrev arrB (c : Dev nD) : FVec Ideal S128 .f32 := m ((c : Thread nD τ).loc main_arg3)
abbrev arrXp (c : Dev nD) : FVec Ideal S8192x128 .f32 := V2 m c main_v2
abbrev arrD (c : Dev nD) : FVec Ideal S8192x1 .f32 := V2 m c main_v0

/-- The normaliser's entry (r, 0) is the specification's. -/
theorem arrD_apply (c : Dev nD) (r : Fin 8192) :
    arrD m c (ValueIdx.ix2 r (0 : Fin 1)) = Cert.Spec.dK (Cert.Spec.at2 (arrA m c)) r := by
  show (V2 m c main_v0 : FVec Ideal S8192x1 .f32) _ = _
  rw [V2_v0 m c, arrAt0_1 (V0 m) c]

/-- The scaled features' entry (j, f): the launched feature times the normaliser of row j. -/
theorem arrXp_apply (c : Dev nD) (j : Fin 8192) (f : Fin 128) :
    arrXp m c (ValueIdx.ix2 j f) = arrX m c (ValueIdx.ix2 j f) * Cert.Spec.dK (Cert.Spec.at2 (arrA m c)) j := by
  show (V2 m c main_v2 : FVec Ideal S8192x128 .f32) _ = _
  rw [V2_v2 m c, ValueIdx.mulf_apply, V1_arg1 m c]
  refine congrArg (fun z => arrX m c (ValueIdx.ix2 j f) * z) ?_
  refine (broadcastInDim_apply (s := S8192x1) (t := S8192x128) ![0, 1] bcast_S8192x1_S8192x128_0_1 _ (ValueIdx.ix2 j f) (ValueIdx.ix2 j (0 : Fin 1)) ?_).trans ?_
  · intro a
    match a with
    | ⟨0, _⟩ => rfl
    | ⟨1, _⟩ => rfl
  · rw [V1_v0 m c, arrAt0_1 (V0 m) c]

end Cert.KernelIdeal.Val

end
-- ==== Proof.Val.R1Pay.lean ====
/-
  The aggregation pass's three stored values, read at an index at the extended reals: the reset value is zero; the
  accumulation step adds to the running value at (p, q) the product of the adjacency block's row p with the scaled
  features block's column q; the final value at (p, q) is the maximum with zero of the bias at q plus the product of
  row p of the accumulator, scaled by the normaliser's entry p, with column q of the weights.
-/
import proofs.«144340_j48576080118434_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.ValueIdx

/-- A column [a, 1] broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! The operand indices of the [2048, 1024] × [1024, 128] product, axis by axis. -/

theorem lhs_mmA_0 (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
theorem lhs_mmA_1 (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
theorem rhs_mmA_0 (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q
theorem rhs_mmA_1 (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- The [2048, 1024] × [1024, 128] product into the zero accumulator, at (p, q): the sum over the shared coordinate j
    of the left operand at (p, j) times the right operand at (j, q). -/
theorem mmA_apply (l : FVec Ideal S2048x1024 .bf16) (r : FVec Ideal S1024x128 .bf16) (p : Fin 2048) (q : Fin 128) :
    matmul dot_S2048x1024_S1024x128_S2048x128_1_0_0_1_n_n none l r (constant (F := Ideal) S2048x128 .f32 0x00000000#32) (ix2 p q)
      = ∑ j : Fin 1024, l (ix2 p j) * r (ix2 j q) := by
  simp only [matmul]
  rw [Ideal.matmul_constant_zero_apply, ← Equiv.sum_comp (ValueIdx.contrEquiv1 dot_S2048x1024_S1024x128_S2048x128_1_0_0_1_n_n 1024 rfl rfl).symm]
  refine Finset.sum_congr rfl fun k _ => ?_
  have hk := ValueIdx.contrEquiv1_symm_val dot_S2048x1024_S1024x128_S2048x128_1_0_0_1_n_n 1024 rfl rfl k
  have el : dot_S2048x1024_S1024x128_S2048x128_1_0_0_1_n_n.lhsIdx (ix2 p q) ((ValueIdx.contrEquiv1 dot_S2048x1024_S1024x128_S2048x128_1_0_0_1_n_n 1024 rfl rfl).symm k) = ix2 p k := funext fun a => Fin.ext (by
    match a with
    | ⟨0, _⟩ => exact lhs_mmA_0 _ _
    | ⟨1, _⟩ => exact (lhs_mmA_1 _ _).trans hk)
  have er : dot_S2048x1024_S1024x128_S2048x128_1_0_0_1_n_n.rhsIdx (ix2 p q) ((ValueIdx.contrEquiv1 dot_S2048x1024_S1024x128_S2048x128_1_0_0_1_n_n 1024 rfl rfl).symm k) = ix2 k q := funext fun a => Fin.ext (by
    match a with
    | ⟨0, _⟩ => exact (rhs_mmA_0 _ _).trans hk
    | ⟨1, _⟩ => exact rhs_mmA_1 _ _)
  rw [el, er]

/-! The operand indices of the [2048, 128] × [128, 128] product, axis by axis. -/

theorem lhs_mmB_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhs_mmB_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem rhs_mmB_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem rhs_mmB_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- The [2048, 128] × [128, 128] product into the zero accumulator, at (p, q): the sum over the shared coordinate f
    of the left operand at (p, f) times the right operand at (f, q). -/
theorem mmB_apply (l : FVec Ideal S2048x128 .bf16) (r : FVec Ideal S128x128 .bf16) (p : Fin 2048) (q : Fin 128) :
    matmul dot_S2048x128_S128x128_S2048x128_1_0_0_1_n_n none l r (constant (F := Ideal) S2048x128 .f32 0x00000000#32) (ix2 p q)
      = ∑ f : Fin 128, l (ix2 p f) * r (ix2 f q) := by
  simp only [matmul]
  rw [Ideal.matmul_constant_zero_apply, ← Equiv.sum_comp (ValueIdx.contrEquiv1 dot_S2048x128_S128x128_S2048x128_1_0_0_1_n_n 128 rfl rfl).symm]
  refine Finset.sum_congr rfl fun k _ => ?_
  have hk := ValueIdx.contrEquiv1_symm_val dot_S2048x128_S128x128_S2048x128_1_0_0_1_n_n 128 rfl rfl k
  have el : dot_S2048x128_S128x128_S2048x128_1_0_0_1_n_n.lhsIdx (ix2 p q) ((ValueIdx.contrEquiv1 dot_S2048x128_S128x128_S2048x128_1_0_0_1_n_n 128 rfl rfl).symm k) = ix2 p k := funext fun a => Fin.ext (by
    match a with
    | ⟨0, _⟩ => exact lhs_mmB_0 _ _
    | ⟨1, _⟩ => exact (lhs_mmB_1 _ _).trans hk)
  have er : dot_S2048x128_S128x128_S2048x128_1_0_0_1_n_n.rhsIdx (ix2 p q) ((ValueIdx.contrEquiv1 dot_S2048x128_S128x128_S2048x128_1_0_0_1_n_n 128 rfl rfl).symm k) = ix2 k q := funext fun a => Fin.ext (by
    match a with
    | ⟨0, _⟩ => exact (rhs_mmB_0 _ _).trans hk
    | ⟨1, _⟩ => exact rhs_mmB_1 _ _)
  rw [el, er]

/-- The accumulator's reset value. -/
theorem k1_pay1_apply (p : Fin 2048) (q : Fin 128) : (k1_pay1 (F := Ideal)) (ix2 p q) = 0 := by
  -- a scalar splat, recast to its own shape, reads the scalar; the zero word denotes 0
  unfold k1_pay1
  rw [shapeCast_self, broadcast_apply]
  exact Ideal.ofBits_zero_f32

/-- One accumulation step. -/
theorem k1_pay2_apply (a : Vec Ideal S2048x1024 .f32) (xp : Vec Ideal S1024x128 .f32) (acc : Vec Ideal S2048x128 .f32)
    (p : Fin 2048) (q : Fin 128) :
    (k1_pay2 (F := Ideal) a xp acc) (ix2 p q) = acc (ix2 p q) + ∑ j : Fin 1024, a (ix2 p j) * xp (ix2 j q) := by
  -- the sum of the running value and the product; narrowing the operands changes no extended real
  unfold k1_pay2
  rw [shapeCast_self, addf_apply, mmA_apply]
  simp only [truncf_apply, shapeCast_self]

/-- The stored result. -/
theorem k1_pay3_apply (acc : Vec Ideal S2048x128 .f32) (d : Vec Ideal S2048x1 .f32) (w : Vec Ideal S128x128 .f32) (b : Vec Ideal S128 .f32)
    (p : Fin 2048) (q : Fin 128) :
    (k1_pay3 (F := Ideal) acc d w b) (ix2 p q)
      = max ((∑ f : Fin 128, (acc (ix2 p f) * d (ix2 p (0 : Fin 1))) * w (ix2 f q)) + b (ix1 q)) 0 := by
  -- pointwise: max, sum, the row broadcast of the bias, the product; inside the product the left operand at (p, f)
  -- is the accumulator times the column broadcast of the normaliser
  unfold k1_pay3
  rw [maximumf_apply, addf_apply, broadcast_apply, mmB_apply, broadcastTo_1b_ab_apply, shapeCast_a_1a_apply]
  simp only [truncf_apply, mulf_apply, broadcastTo_a1_ab_apply, shapeCast_self]
  exact congrArg (max _) Ideal.ofBits_zero_f32

end Cert.KernelIdeal.Val

end
-- ==== Proof.Val.R1Pieces.lean ====
/-
  What the second region's three control cases leave, read back as the body's arithmetic: at k = 0 the accumulator is
  the block product added to zero; at 0 < k the accumulator is the block product added to what the point before left;
  at k = 7 the result block is the completed accumulator scaled row by row by the normaliser block, contracted against
  the weights, the bias added, clamped at zero from below. Every store of the body is through the whole-shape rectangle
  at zero offsets, so what a case's stores leave is the payload of the last of them, and a load of the accumulator after
  a store reads that store's payload.
-/
import proofs.«144340_j48576080118434_1_alg».proof.Proof.KI.R1Frame
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a rank-2 rectangle, as a constant function. -/
theorem r1_off2_zero : (![0, 0] : Fin 2 → Nat) = fun _ => 0 := funext fun a => by fin_cases a <;> rfl
/-- The zero offset of a rank-1 rectangle, as a constant function. -/
theorem r1_off1_zero : (![0] : Fin 1 → Nat) = fun _ => 0 := funext fun a => by fin_cases a <;> rfl

/-- At k = 0 the accumulator is left at the block product added to the reset value. -/
theorem sout1_A_0_eq (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x1 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2048x128 .f32) (harg7 : arg7.IsWhole) (arg8 : Memref sig .tc .vmem S2048x128 .f32) (harg8 : arg8.IsWhole) (hc0 : cond1_0 i) (hc1 : ¬cond1_1 i)
    (x0 : Vec F S2048x1024 .f32) (x1 : Vec F S1024x128 .f32) (x2 : Vec F S2048x1 .f32) (x3 : Vec F S128x128 .f32) (x4 : Vec F S128 .f32) :
    sout1_A_0 c i arg2 harg2 arg3 harg3 arg4 harg4 arg5 harg5 arg6 harg6 arg7 harg7 arg8 harg8 hc0 hc1 x0 x1 x2 x3 x4 = k1_pay2 x0 x1 (k1_pay1 (F := F)) := by
  unfold sout1_A_0
  rw [View.read_writes_eq_canon _ _ _ (scover1_A_0 c i arg2 harg2 arg3 harg3 arg4 harg4 arg5 harg5 arg6 harg6 arg7 harg7 arg8 harg8 hc0 hc1 x0 x1 x2 x3 x4)]
  unfold kernelRun1_A
  dsimp only
  sl_unfold_words
  rw [View.canon_cons_unit_zero (S := S2048x128) r1_off2_zero, View.readCov_unit_zero (S := S2048x128) _ r1_off2_zero]
  simp only [View.readAt_eq_ld, harg2.read_unread, harg3.read_unread, harg4.read_unread, harg5.read_unread, harg6.read_unread, harg7.read_unread, harg8.read_unread, View.ld_unit_zero (S := S2048x1024) r1_off2_zero, View.ld_unit_zero (S := S1024x128) r1_off2_zero, View.ld_unit_zero (S := S2048x128) r1_off2_zero, View.ld_unit_zero (S := S2048x1) r1_off2_zero, View.ld_unit_zero (S := S128x128) r1_off2_zero, View.ld_unit_zero (S := S128) r1_off1_zero, View.readCov_unit_zero (S := S2048x128) _ r1_off2_zero]

/-- At 0 < k < 7 the accumulator is left at the block product added to what it held. -/
theorem sout1_B_0_eq (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x1 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : ¬cond1_1 i)
    (x0 : Vec F S2048x1024 .f32) (x1 : Vec F S1024x128 .f32) (x2 : Vec F S2048x1 .f32) (x3 : Vec F S128x128 .f32) (x4 : Vec F S128 .f32) (xs0 : Vec F S2048x128 .f32) :
    sout1_B_0 c i arg2 harg2 arg3 harg3 arg4 harg4 arg5 harg5 arg6 harg6 arg7 harg7 arg8 harg8 hc0 hc1 x0 x1 x2 x3 x4 xs0 = k1_pay2 x0 x1 xs0 := by
  unfold sout1_B_0
  rw [View.read_writes_eq_canon _ _ _ (scover1_B_0 c i arg2 harg2 arg3 harg3 arg4 harg4 arg5 harg5 arg6 harg6 arg7 harg7 arg8 harg8 hc0 hc1 x0 x1 x2 x3 x4 xs0)]
  unfold kernelRun1_B
  dsimp only
  sl_unfold_words
  rw [View.canon_unit_zero (S := S2048x128) r1_off2_zero]
  simp only [View.readAt_eq_ld, harg2.read_unread, harg3.read_unread, harg4.read_unread, harg5.read_unread, harg6.read_unread, harg7.read_unread, harg8.read_unread, View.ld_unit_zero (S := S2048x1024) r1_off2_zero, View.ld_unit_zero (S := S1024x128) r1_off2_zero, View.ld_unit_zero (S := S2048x128) r1_off2_zero, View.ld_unit_zero (S := S2048x1) r1_off2_zero, View.ld_unit_zero (S := S128x128) r1_off2_zero, View.ld_unit_zero (S := S128) r1_off1_zero, View.readCov_unit_zero (S := S2048x128) _ r1_off2_zero]

/-- At k = 7 the accumulator is left at the block product added to what it held. -/
theorem sout1_C_0_eq (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x1 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x1024 .f32) (x1 : Vec F S1024x128 .f32) (x2 : Vec F S2048x1 .f32) (x3 : Vec F S128x128 .f32) (x4 : Vec F S128 .f32) (xs0 : Vec F S2048x128 .f32) :
    sout1_C_0 c i arg2 harg2 arg3 harg3 arg4 harg4 arg5 harg5 arg6 harg6 arg7 harg7 arg8 harg8 hc0 hc1 x0 x1 x2 x3 x4 xs0 = k1_pay2 x0 x1 xs0 := by
  unfold sout1_C_0
  rw [View.read_writes_eq_canon _ _ _ (scover1_C_0 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero (S := S2048x128) r1_off2_zero]
  simp only [View.readAt_eq_ld, harg2.read_unread, harg3.read_unread, harg4.read_unread, harg5.read_unread, harg6.read_unread, harg7.read_unread, harg8.read_unread, View.ld_unit_zero (S := S2048x1024) r1_off2_zero, View.ld_unit_zero (S := S1024x128) r1_off2_zero, View.ld_unit_zero (S := S2048x128) r1_off2_zero, View.ld_unit_zero (S := S2048x1) r1_off2_zero, View.ld_unit_zero (S := S128x128) r1_off2_zero, View.ld_unit_zero (S := S128) r1_off1_zero, View.readCov_unit_zero (S := S2048x128) _ r1_off2_zero]

/-- At k = 7 the result window is left at the result block computed from the completed accumulator. -/
theorem out1_C_5_eq (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x1 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x1024 .f32) (x1 : Vec F S1024x128 .f32) (x2 : Vec F S2048x1 .f32) (x3 : Vec F S128x128 .f32) (x4 : Vec F S128 .f32) (xs0 : Vec F S2048x128 .f32) :
    out1_C_5 c i arg2 harg2 arg3 harg3 arg4 harg4 arg5 harg5 arg6 harg6 arg7 harg7 arg8 harg8 hc0 hc1 x0 x1 x2 x3 x4 xs0 = k1_pay3 (k1_pay2 x0 x1 xs0) x2 x3 x4 := by
  unfold out1_C_5
  rw [View.read_writes_eq_canon _ _ _ (cover1_C_5 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero (S := S2048x128) r1_off2_zero]
  simp only [View.readAt_eq_ld, harg2.read_unread, harg3.read_unread, harg4.read_unread, harg5.read_unread, harg6.read_unread, harg7.read_unread, harg8.read_unread, View.ld_unit_zero (S := S2048x1024) r1_off2_zero, View.ld_unit_zero (S := S1024x128) r1_off2_zero, View.ld_unit_zero (S := S2048x128) r1_off2_zero, View.ld_unit_zero (S := S2048x1) r1_off2_zero, View.ld_unit_zero (S := S128x128) r1_off2_zero, View.ld_unit_zero (S := S128) r1_off1_zero, View.readCov_unit_zero (S := S2048x128) _ r1_off2_zero]

end Cert.KernelIdeal.Val

end
-- ==== Proof.SpecP.lean ====
/-
  The aggregation pass as a function of what it is handed: the adjacency, the features already scaled row by row, the
  normaliser as a column, the weights and the bias. Handed the features scaled by the kernel's normaliser and that
  normaliser itself, it is the kernel's result.
-/
import proofs.«144340_j48576080118434_1_alg».proof.Proof.Spec

noncomputable section

namespace Cert.Spec

open Idealize.ShloMosaic

/-- The aggregation pass at (r, o):  max (Σ_f ((Σ_j A r j · Xp j f) · d r) · W f o + b o) 0. -/
def outP (A : Fin 8192 → Fin 8192 → EReal) (Xp : Fin 8192 → Fin 128 → EReal) (d : Fin 8192 → EReal)
    (W : Fin 128 → Fin 128 → EReal) (b : Fin 128 → EReal) (r : Fin 8192) (o : Fin 128) : EReal :=
  max ((∑ f : Fin 128, ((∑ j : Fin 8192, A r j * Xp j f) * d r) * W f o) + b o) 0

theorem outP_eq_outK (A : Fin 8192 → Fin 8192 → EReal) (X : Fin 8192 → Fin 128 → EReal)
    (W : Fin 128 → Fin 128 → EReal) (b : Fin 128 → EReal) (r : Fin 8192) (o : Fin 128) :
    outP A (fun j f => X j f * dK A j) (dK A) W b r o = outK A X W b r o := rfl

end Cert.Spec

end
-- ==== Proof.Val.R1Value.lean ====
/-
  What the aggregation pass writes back, at the extended reals: entry (r, o) of its 8192 × 128 result is the maximum
  with zero of the bias at o plus the product with the weights' column o of the row
  (Σ_j A r j · Xp j f) · d r  over the features f, where A, Xp and d are the adjacency, the scaled features and the
  normaliser as the region finds them. The accumulator after point 8·i + k holds, at (p, f), the sum over the columns
  j < 1024·(k + 1) of A (2048·i + p) j · Xp j f — each point adds its block product to what the point before left, the
  first point of a row of blocks starting from zero —, so at k = 7 it is the whole contraction, from which the result
  block i is computed, stored and written back; the four blocks tile the result.
-/
import proofs.«144340_j48576080118434_1_alg».proof.Proof.KI.R1Frame
import proofs.«144340_j48576080118434_1_alg».proof.Proof.Val.R1Pay
import proofs.«144340_j48576080118434_1_alg».proof.Proof.Val.R1Pieces
import proofs.«144340_j48576080118434_1_alg».proof.Proof.SpecP
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

namespace R1

open Idealize.ShloMosaic.ValueIdx

/-! ## The blocks and the arrays, each at its literal type -/

abbrev ablk1 (c : Dev nD) (t : Fin cfg1.N) : FVec Ideal S2048x1024 .f32 := iblk1 V c 0 t
abbrev xblk1 (c : Dev nD) (t : Fin cfg1.N) : FVec Ideal S1024x128 .f32 := iblk1 V c 1 t
abbrev dblk1 (c : Dev nD) (t : Fin cfg1.N) : FVec Ideal S2048x1 .f32 := iblk1 V c 2 t
abbrev wblk1 (c : Dev nD) (t : Fin cfg1.N) : FVec Ideal S128x128 .f32 := iblk1 V c 3 t
abbrev bblk1 (c : Dev nD) (t : Fin cfg1.N) : FVec Ideal S128 .f32 := iblk1 V c 4 t
abbrev aarr1 (c : Dev nD) : FVec Ideal S8192x8192 .f32 := V c main_arg0
abbrev xparr1 (c : Dev nD) : FVec Ideal S8192x128 .f32 := V c main_v2
abbrev darr1 (c : Dev nD) : FVec Ideal S8192x1 .f32 := V c main_v0
abbrev warr1 (c : Dev nD) : FVec Ideal S128x128 .f32 := V c main_arg2
abbrev barr1 (c : Dev nD) : FVec Ideal S128 .f32 := V c main_arg3

theorem N1_eq : cfg1.N = 32 := N_1

/-- Row p of block-row i, as a row of the whole array. -/
def rowOf (i : Fin 4) (p : Fin 2048) : Fin 8192 := ⟨2048 * i.val + p.val, by omega⟩
/-- Column q of block-column k, as a column of the whole adjacency (a row of the scaled features). -/
def colOf (k : Fin 8) (q : Fin 1024) : Fin 8192 := ⟨1024 * k.val + q.val, by omega⟩
/-- The block-row of a grid point. -/
def ptI (t : Fin cfg1.N) : Fin 4 := ⟨t.val / 8, by have := t.isLt; have := N1_eq; omega⟩
/-- The block-column of a grid point. -/
def ptK (t : Fin cfg1.N) : Fin 8 := ⟨t.val % 8, Nat.mod_lt _ (by decide)⟩

/-- The windows' block indices, decided once over the grid. -/
theorem idx1_facts : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val / 8 ∧ win1_5.index t (1 : Fin 2) = 0 :=
  (by decide +kernel : ∀ t : Fin grid1.N, _)

theorem ablk1_apply (c : Dev nD) (t : Fin cfg1.N) (p : Fin 2048) (q : Fin 1024) :
    ablk1 V c t (ix2 p q) = aarr1 V c (ix2 (rowOf (ptI t) p) (colOf (ptK t) q)) := by
  obtain ⟨e0, e1, -⟩ := idx1_facts t
  show V c main_arg0 (((cfg1.win 0).blk t).view.emb (ix2 p q)) = V c main_arg0 (ix2 (rowOf (ptI t) p) (colOf (ptK t) q))
  refine congrArg (V c main_arg0) (funext fun a => Fin.ext ?_)
  match a with
  | ⟨0, _⟩ => show win1_0.index t (0 : Fin 2) * 2048 + 1 * p.val = 2048 * (t.val / 8) + p.val; omega
  | ⟨1, _⟩ => show win1_0.index t (1 : Fin 2) * 1024 + 1 * q.val = 1024 * (t.val % 8) + q.val; omega

theorem xblk1_apply (c : Dev nD) (t : Fin cfg1.N) (j : Fin 1024) (f : Fin 128) :
    xblk1 V c t (ix2 j f) = xparr1 V c (ix2 (colOf (ptK t) j) f) := by
  obtain ⟨-, -, e2, e3, -⟩ := idx1_facts t
  show V c main_v2 (((cfg1.win 1).blk t).view.emb (ix2 j f)) = V c main_v2 (ix2 (colOf (ptK t) j) f)
  refine congrArg (V c main_v2) (funext fun a => Fin.ext ?_)
  match a with
  | ⟨0, _⟩ => show win1_1.index t (0 : Fin 2) * 1024 + 1 * j.val = 1024 * (t.val % 8) + j.val; omega
  | ⟨1, _⟩ => show win1_1.index t (1 : Fin 2) * 128 + 1 * f.val = f.val; omega

theorem dblk1_apply (c : Dev nD) (t : Fin cfg1.N) (p : Fin 2048) :
    dblk1 V c t (ix2 p (0 : Fin 1)) = darr1 V c (ix2 (rowOf (ptI t) p) (0 : Fin 1)) := by
  obtain ⟨-, -, -, -, e4, e5, -⟩ := idx1_facts t
  show V c main_v0 (((cfg1.win 2).blk t).view.emb (ix2 p (0 : Fin 1))) = V c main_v0 (ix2 (rowOf (ptI t) p) (0 : Fin 1))
  refine congrArg (V c main_v0) (funext fun a => Fin.ext ?_)
  match a with
  | ⟨0, _⟩ => show win1_2.index t (0 : Fin 2) * 2048 + 1 * p.val = 2048 * (t.val / 8) + p.val; omega
  | ⟨1, _⟩ => show win1_2.index t (1 : Fin 2) * 1 + 1 * 0 = 0; omega

theorem wblk1_apply (c : Dev nD) (t : Fin cfg1.N) (f : Fin 128) (q : Fin 128) :
    wblk1 V c t (ix2 f q) = warr1 V c (ix2 f q) := by
  obtain ⟨-, -, -, -, -, -, e6, e7, -⟩ := idx1_facts t
  show V c main_arg2 (((cfg1.win 3).blk t).view.emb (ix2 f q)) = V c main_arg2 (ix2 f q)
  refine congrArg (V c main_arg2) (funext fun a => Fin.ext ?_)
  match a with
  | ⟨0, _⟩ => show win1_3.index t (0 : Fin 2) * 128 + 1 * f.val = f.val; omega
  | ⟨1, _⟩ => show win1_3.index t (1 : Fin 2) * 128 + 1 * q.val = q.val; omega

theorem bblk1_apply (c : Dev nD) (t : Fin cfg1.N) (q : Fin 128) :
    bblk1 V c t (ix1 q) = barr1 V c (ix1 q) := by
  obtain ⟨-, -, -, -, -, -, -, -, e8, -⟩ := idx1_facts t
  show V c main_arg3 (((cfg1.win 4).blk t).view.emb (ix1 q)) = V c main_arg3 (ix1 q)
  refine congrArg (V c main_arg3) (funext fun a => Fin.ext ?_)
  match a with
  | ⟨0, _⟩ => show win1_4.index t (0 : Fin 1) * 128 + 1 * q.val = q.val; omega

/-! ## The contraction over 8192 columns as eight block contractions over 1024 -/

section BlockSum
variable (A : Fin 8192 → Fin 8192 → EReal) (Xp : Fin 8192 → Fin 128 → EReal)

/-- The contribution of block-column k' to entry (r, f) of the contraction (zero beyond the eight blocks). -/
def bsum (r : Fin 8192) (f : Fin 128) (k' : ℕ) : EReal :=
  if h : k' < 8 then ∑ j : Fin 1024, A r (colOf ⟨k', h⟩ j) * Xp (colOf ⟨k', h⟩ j) f else 0

theorem bsum_of_lt (r : Fin 8192) (f : Fin 128) (k : Fin 8) :
    bsum A Xp r f k.val = ∑ j : Fin 1024, A r (colOf k j) * Xp (colOf k j) f := dif_pos k.isLt

/-- A column of the 8192 is column j of exactly one of the eight blocks. -/
def colEquiv : Fin 8 × Fin 1024 ≃ Fin 8192 where
  toFun x := colOf x.1 x.2
  invFun j := (⟨j.val / 1024, by have := j.isLt; omega⟩, ⟨j.val % 1024, Nat.mod_lt _ (by decide)⟩)
  left_inv x := by
    obtain ⟨k, j⟩ := x
    refine Prod.ext (Fin.ext ?_) (Fin.ext ?_)
    · show (1024 * k.val + j.val) / 1024 = k.val; have := j.isLt; omega
    · show (1024 * k.val + j.val) % 1024 = j.val; have := j.isLt; omega
  right_inv j := Fin.ext (by show 1024 * (j.val / 1024) + j.val % 1024 = j.val; omega)

/-- The eight block contributions add up to the whole contraction. -/
theorem sum_bsum (r : Fin 8192) (f : Fin 128) :
    ∑ k' ∈ Finset.range 8, bsum A Xp r f k' = ∑ j : Fin 8192, A r j * Xp j f := by
  rw [Finset.sum_range, ← Equiv.sum_comp colEquiv (fun j => A r j * Xp j f), Fintype.sum_prod_type]
  exact Finset.sum_congr rfl fun k _ => bsum_of_lt A Xp r f k

end BlockSum

/-! ## The accumulator after each point -/

/-- At the first point of a row of blocks the accumulator is the block product added to the reset value. -/
theorem acc1_reset (c : Dev nD) (t : Fin cfg1.N) (h0 : t.val % 8 = 0) :
    (outsAt1 V c t.val t.isLt).2 = k1_pay2 (F := Ideal) (ablk1 V c t) (xblk1 V c t) (k1_pay1 (F := Ideal)) := by
  have h1 : ¬ t.val % 8 = 7 := by omega
  rw [outsAt1_A V c t h0 h1]
  dsimp only
  exact sout1_A_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)

/-- At every other point it is the block product added to what the point before left. -/
theorem acc1_step (c : Dev nD) (t : Fin cfg1.N) (h0 : ¬ t.val % 8 = 0) :
    (outsAt1 V c t.val t.isLt).2
      = k1_pay2 (F := Ideal) (ablk1 V c t) (xblk1 V c t) (outsAt1 V c (t.val - 1) (Nat.lt_of_le_of_lt (Nat.sub_le _ _) t.isLt)).2 := by
  by_cases h1 : t.val % 8 = 7
  · rw [outsAt1_C V c t h0 h1]
    dsimp only
    exact sout1_C_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2
  · rw [outsAt1_B V c t h0 h1]
    dsimp only
    exact sout1_B_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2

/-- At the last point of a row of blocks the result window is left at the result block computed from the accumulator. -/
theorem out1_last (c : Dev nD) (t : Fin cfg1.N) (h1 : t.val % 8 = 7) :
    (outsAt1 V c t.val t.isLt).1
      = k1_pay3 (F := Ideal) (outsAt1 V c t.val t.isLt).2 (dblk1 V c t) (wblk1 V c t) (bblk1 V c t) := by
  have h0 : ¬ t.val % 8 = 0 := by omega
  rw [acc1_step V c t h0, outsAt1_C V c t h0 h1]
  dsimp only
  exact out1_C_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2

/-- One block product at (p, f), over the whole arrays. -/
theorem blockprod_apply (c : Dev nD) (t : Fin cfg1.N) (p : Fin 2048) (f : Fin 128) :
    ∑ j : Fin 1024, ablk1 V c t (ix2 p j) * xblk1 V c t (ix2 j f)
      = bsum (Cert.Spec.at2 (aarr1 V c)) (Cert.Spec.at2 (xparr1 V c)) (rowOf (ptI t) p) f (t.val % 8) := by
  refine Eq.trans (Finset.sum_congr rfl fun j _ => ?_) (bsum_of_lt _ _ _ _ (ptK t)).symm
  rw [ablk1_apply, xblk1_apply]

/-- THE INVARIANT: after point 8·i + k the accumulator holds, at (p, f), the contributions of the block-columns 0 … k to
    entry (2048·i + p, f) of the contraction. -/
theorem acc1_eq (c : Dev nD) : ∀ (n : ℕ) (hn : n < cfg1.N) (p : Fin 2048) (f : Fin 128),
    (outsAt1 V c n hn).2 (ix2 p f)
      = ∑ k' ∈ Finset.range (n % 8 + 1), bsum (Cert.Spec.at2 (aarr1 V c)) (Cert.Spec.at2 (xparr1 V c)) (rowOf (ptI ⟨n, hn⟩) p) f k' := by
  intro n
  induction n using Nat.strong_induction_on with
  | _ n ih =>
    intro hn p f
    by_cases h0 : n % 8 = 0
    · rw [acc1_reset V c ⟨n, hn⟩ h0, k1_pay2_apply, k1_pay1_apply, zero_add, blockprod_apply, h0, Finset.sum_range_one]
    · have hlt : n - 1 < n := by omega
      rw [acc1_step V c ⟨n, hn⟩ h0, k1_pay2_apply, blockprod_apply]
      show (outsAt1 V c (n - 1) _).2 (ix2 p f) + _ = _
      have e1 : (n - 1) % 8 + 1 = n % 8 := by omega
      have e2 : ptI ⟨n - 1, Nat.lt_of_le_of_lt (Nat.sub_le _ _) hn⟩ = ptI ⟨n, hn⟩ := Fin.ext (by show (n - 1) / 8 = n / 8; omega)
      rw [ih (n - 1) hlt _ p f, e1, e2, Finset.sum_range_succ]

/-! ## What is written back, and where -/

/-- The result array: the aggregation pass's function of the five arrays the region finds. -/
abbrev G1 (c : Dev nD) : FVec Ideal S8192x128 .f32 :=
  fun i => Cert.Spec.outP (Cert.Spec.at2 (aarr1 V c)) (Cert.Spec.at2 (xparr1 V c))
    (fun r => darr1 V c (ix2 r (0 : Fin 1))) (Cert.Spec.at2 (warr1 V c)) (Cert.Spec.at1 (barr1 V c)) (i 0) (i 1)

/-- An entry of the result block at the last point of block-row i is the result array's entry in row 2048·i + p. -/
theorem res1_apply (c : Dev nD) (t : Fin cfg1.N) (h1 : t.val % 8 = 7) (p : Fin 2048) (q : Fin 128) :
    (outsAt1 V c t.val t.isLt).1 (ix2 p q) = G1 V c (ix2 (rowOf (ptI t) p) q) := by
  rw [out1_last V c t h1, k1_pay3_apply]
  show _ = Cert.Spec.outP _ _ _ _ _ (rowOf (ptI t) p) q
  unfold Cert.Spec.outP
  rw [dblk1_apply, bblk1_apply]
  refine congrArg (fun z => max (z + barr1 V c (ix1 q)) 0) (Finset.sum_congr rfl fun f _ => ?_)
  rw [wblk1_apply, acc1_eq V c t.val t.isLt p f, h1, sum_bsum]

/-- WHAT A FLUSHING POINT WRITES BACK is its block of the result array. -/
theorem flushed1_5 (c : Dev nD) (t : Fin cfg1.N) (h1 : t.val % 8 = 7) :
    (dat1 V c).flushed 5 t = ((cfg1.win 5).blk t).view.read (Elt Ideal) (G1 V c) := by
  show (cfg1.win 5).cut (grid1.coords t) ((dat1 V c).after 5 t) = _
  rw [after1_5]
  funext y
  obtain ⟨p, q, rfl⟩ : ∃ (p : Fin 2048) (q : Fin 128), y = ix2 p q := ⟨y 0, y 1, eq_ix2 y⟩
  obtain ⟨-, -, -, -, -, -, -, -, -, e9, e10⟩ := idx1_facts t
  show (outsAt1 V c t.val t.isLt).1 (ix2 p q) = G1 V c (((cfg1.win 5).blk t).view.emb (ix2 p q))
  rw [res1_apply V c t h1 p q]
  refine congrArg (G1 V c) (funext fun a => Fin.ext ?_)
  match a with
  | ⟨0, _⟩ => show 2048 * (t.val / 8) + p.val = win1_5.index t (0 : Fin 2) * 2048 + 1 * p.val; omega
  | ⟨1, _⟩ => show q.val = win1_5.index t (1 : Fin 2) * 128 + 1 * q.val; omega

/-- An index of the result array is in point t's block iff each coordinate is in the block's range on its axis. -/
theorem mem_blk1_5 (t : Fin cfg1.N) (i : S8192x128.Idx) :
    i ∈ ((cfg1.win 5).blk t).view.set ↔ ∀ a : Fin 2, win1_5.index t a * S2048x128.size a ≤ (i a).val ∧ (i a).val < win1_5.index t a * S2048x128.size a + S2048x128.size a := by
  show i ∈ ((View.whole main_v3).slice (win1_5.rect t)).set ↔ _
  rw [View.set_slice_whole, Rect.mem_set_unit]
  exact Iff.rfl

/-- Row r of the result is covered by the last point of its block-row. -/
theorem cover1_5 (i : S8192x128.Idx) : ∃ t : Fin cfg1.N, (cfg1.win 5).flush t = true ∧ i ∈ ((cfg1.win 5).blk t).view.set := by
  have hi0 : (i 0).val < 8192 := (i 0).isLt
  have hi1 : (i 1).val < 128 := (i 1).isLt
  have hN := N1_eq
  refine ⟨⟨8 * ((i 0).val / 2048) + 7, by omega⟩, (flush1_5 _).mpr (by show (8 * ((i 0).val / 2048) + 7) % 8 = 7; omega), ?_⟩
  rw [mem_blk1_5]
  obtain ⟨-, -, -, -, -, -, -, -, -, e9, e10⟩ := idx1_facts ⟨8 * ((i 0).val / 2048) + 7, by omega⟩
  intro a
  match a with
  | ⟨0, _⟩ =>
    show win1_5.index _ (0 : Fin 2) * 2048 ≤ (i 0).val ∧ (i 0).val < win1_5.index _ (0 : Fin 2) * 2048 + 2048
    rw [e9]; show (8 * ((i 0).val / 2048) + 7) / 8 * 2048 ≤ (i 0).val ∧ (i 0).val < (8 * ((i 0).val / 2048) + 7) / 8 * 2048 + 2048
    omega
  | ⟨1, _⟩ =>
    show win1_5.index _ (1 : Fin 2) * 128 ≤ (i 1).val ∧ (i 1).val < win1_5.index _ (1 : Fin 2) * 128 + 128
    rw [e10]; omega

end R1

/-- The aggregation pass's result array after the run, index by index. -/
theorem arrAt1_5 (c : Dev nD) :
    (dat1 (F := Ideal) V c).arrAt 5 cfg1.N
      = fun i : S8192x128.Idx => Cert.Spec.outP (Cert.Spec.at2 (V c main_arg0)) (Cert.Spec.at2 (V c main_v2))
          (fun r => (V c main_v0 : FVec Ideal S8192x1 .f32) (ValueIdx.ix2 r (0 : Fin 1)))
          (Cert.Spec.at2 (V c main_arg2)) (Cert.Spec.at1 (V c main_arg3)) (i 0) (i 1) := by
  -- every flushing point writes its block of one array, and the four flushed blocks cover the result
  exact (dat1 V c).arrAt_eq_of_cover 5 (R1.G1 V c) (fun t hf => R1.flushed1_5 V c t ((flush1_5 t).mp hf)) R1.cover1_5

end Cert.KernelIdeal.Val

end
-- ==== Proof.Val.Final.lean ====
/-
  The idealized kernel's result in terms of the launch memory: the aggregation pass applied to what it finds — the
  adjacency, weights and bias as launched, the features scaled by the degree pass's normaliser, and that normaliser —
  is the specification's kernel side.
-/
import proofs.«144340_j48576080118434_1_alg».proof.Proof.KI.Launch
import proofs.«144340_j48576080118434_1_alg».proof.Proof.Val.Mid
import proofs.«144340_j48576080118434_1_alg».proof.Proof.Val.R1Value
import proofs.«144340_j48576080118434_1_alg».proof.Proof.SpecP

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem
open Idealize.ShloMosaic.Pipeline (Dat)

variable (m : (ℓ : Loc nD τ sig) → Buf (Elt Ideal) ℓ)

/-- The kernel's result array after the run is the specification's kernel side of the launched arrays. -/
theorem kernel_value (c : Dev nD) :
    (dat1 (F := Ideal) (V2 m) c).arrAt 5 cfg1.N = Cert.Spec.GK (arrA m c) (arrX m c) (arrW m c) (arrB m c) := by
  rw [arrAt1_5 (V2 m) c]
  funext i
  have hA : Cert.Spec.at2 (V2 m c main_arg0) = Cert.Spec.at2 (arrA m c) := by rw [V2_arg0 m c]
  have hW : Cert.Spec.at2 (V2 m c main_arg2) = Cert.Spec.at2 (arrW m c) := by rw [V2_arg2 m c]
  have hB : Cert.Spec.at1 (V2 m c main_arg3) = Cert.Spec.at1 (arrB m c) := by rw [V2_arg3 m c]
  have hXp : Cert.Spec.at2 (V2 m c main_v2) = fun j f => Cert.Spec.at2 (arrX m c) j f * Cert.Spec.dK (Cert.Spec.at2 (arrA m c)) j :=
    funext fun j => funext fun f => arrXp_apply m c j f
  have hD : (fun r : Fin 8192 => (V2 m c main_v0 : FVec Ideal S8192x1 .f32) (ValueIdx.ix2 r (0 : Fin 1))) = Cert.Spec.dK (Cert.Spec.at2 (arrA m c)) :=
    funext fun r => arrD_apply m c r
  show Cert.Spec.outP (Cert.Spec.at2 (V2 m c main_arg0)) (Cert.Spec.at2 (V2 m c main_v2))
      (fun r => (V2 m c main_v0 : FVec Ideal S8192x1 .f32) (ValueIdx.ix2 r (0 : Fin 1)))
      (Cert.Spec.at2 (V2 m c main_arg2)) (Cert.Spec.at1 (V2 m c main_arg3)) (i 0) (i 1) = _
  rw [hA, hW, hB, hXp, hD]
  exact Cert.Spec.outP_eq_outK _ _ _ _ _ _

/-- The idealized kernel's run with its result named: every execution terminates with the result array at the
    specification's kernel side of the launched arrays and the arguments as launched. -/
theorem run_value (ρ : Dev nD → PrngReg) : θ_run defs (onTc (τ := τ) (main (F := Ideal))) ⟨m, fun _ => 0, ρ⟩ (fun r => ∀ c : Dev nD,
      r.2.mem ((c.tc : Thread nD τ).loc main_v3) = Cert.Spec.GK (arrA m c) (arrX m c) (arrW m c) (arrB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (kernel_value m c), (h c).2⟩) (run_result (F := Ideal) m ρ)

end Cert.KernelIdeal.Val

end
-- ==== Proof.RefValue.lean ====
/-
  The reference's result, read index by index at the extended reals, is the specification's reference side: the row
  sums by the host's sum (its initial value the zero word), d = 1 / sqrt of them, the adjacency scaled by d along its
  rows and then along its columns, the two matrix products as plain sums over the contracted coordinate, the bias added
  and the maximum with zero taken.
-/
import proofs.«144340_j48576080118434_1_alg».proof.Proof.Gen.ReferenceIdeal.Run
import proofs.«144340_j48576080118434_1_alg».proof.Proof.Gen.ReferenceIdeal.Read
import proofs.«144340_j48576080118434_1_alg».proof.Proof.Spec
import Idealize.ShloMosaic.Lib.ValueIdx
import Idealize.ShloMosaic.PureOps.Ideal.Laws

noncomputable section

namespace Cert.RefValue

open Cert.ReferenceIdeal Cert.ReferenceIdeal.Gen Idealize.ShloMosaic Idealize.ShloMosaic.TcCoe Idealize.SL.Sem

/-! ## The constant of the division -/

/-- The word 0x3F800000 (sign 0, exponent 127, significand 0) denotes 2^23 · 2^(127 - 127 - 23) = 1. -/
theorem ofBits_one_f32 : Ideal.ofBits .f32 0x3F800000#32 = 1 := by
  simp [Ideal.ofBits, Ideal.ieee, -EReal.coe_mul]; norm_num

/-! ## Where each stage reads its operand, in plain coordinates

  The second product at (r, o) contracts f: it reads the first product at (r, f) and the weights at (f, o). The first
  product at (r, f) contracts j: it reads the normalised adjacency at (r, j) and the features at (j, f). The row factor
  at (r, j) is d at r (through the column [r, 0]), the column factor at (r, j) is d at j (through the row [0, j]), the
  sum behind d at r runs over the adjacency's entries (r, k), and the bias at (r, o) is b at o (through the row [0, o]).
-/

/-- The second product's left operand at (r, o), contracted coordinate f, is read at (r, f). -/
theorem second_left (r : Fin 8192) (o f : Fin 128) :
    Read.lidx_main_v11 (ValueIdx.ix2 r o) f = ValueIdx.ix2 r f :=
  funext fun a => by match a with | ⟨0, _⟩ => rfl | ⟨1, _⟩ => rfl

/-- The second product's right operand at (r, o), contracted coordinate f, is read at (f, o). -/
theorem second_right (r : Fin 8192) (o f : Fin 128) :
    Read.ridx_main_v11 (ValueIdx.ix2 r o) f = ValueIdx.ix2 f o :=
  funext fun a => by match a with | ⟨0, _⟩ => rfl | ⟨1, _⟩ => rfl

/-- The first product's left operand at (r, f), contracted coordinate j, is read at (r, j). -/
theorem first_left (r : Fin 8192) (f : Fin 128) (j : Fin 8192) :
    Read.lidx_main_v10 (ValueIdx.ix2 r f) j = ValueIdx.ix2 r j :=
  funext fun a => by match a with | ⟨0, _⟩ => rfl | ⟨1, _⟩ => rfl

/-- The first product's right operand at (r, f), contracted coordinate j, is read at (j, f). -/
theorem first_right (r : Fin 8192) (f : Fin 128) (j : Fin 8192) :
    Read.ridx_main_v10 (ValueIdx.ix2 r f) j = ValueIdx.ix2 j f :=
  funext fun a => by match a with | ⟨0, _⟩ => rfl | ⟨1, _⟩ => rfl

/-- The row factor at (r, j) is the normaliser at r: [r, j] ↦ [r, 0] ↦ [r]. -/
theorem row_factor (r j : Fin 8192) :
    Read.idx_main_v4 (Read.idx_main_v5 (ValueIdx.ix2 r j)) = ValueIdx.ix1 r :=
  funext fun a => by match a with | ⟨0, _⟩ => rfl

/-- The column factor at (r, j) is the normaliser at j: [r, j] ↦ [0, j] ↦ [j]. -/
theorem col_factor (r j : Fin 8192) :
    Read.idx_main_v7 (Read.idx_main_v8 (ValueIdx.ix2 r j)) = ValueIdx.ix1 j :=
  funext fun a => by match a with | ⟨0, _⟩ => rfl

/-- The row sum at r adds the adjacency's entries (r, k). -/
theorem rowsum_entry (r k : Fin 8192) :
    Read.idx_main_v0 (ValueIdx.ix1 r) k = ValueIdx.ix2 r k :=
  funext fun a => by match a with | ⟨0, _⟩ => rfl | ⟨1, _⟩ => rfl

/-- The bias at (r, o) is b at o: [r, o] ↦ [0, o] ↦ [o]. -/
theorem bias_entry (r : Fin 8192) (o : Fin 128) :
    Read.idx_main_v12 (Read.idx_main_v13 (ValueIdx.ix2 r o)) = ValueIdx.ix1 o :=
  funext fun a => by match a with | ⟨0, _⟩ => rfl

/-! ## The reference at an index -/

/-- The reference's last stage is the specification's reference side, as whole arrays. -/
theorem ref_eq (x0 : (⟨S8192x8192, .f32⟩ : BufTy).Contents (Elt Ideal)) (x1 : (⟨S8192x128, .f32⟩ : BufTy).Contents (Elt Ideal))
    (x2 : (⟨S128x128, .f32⟩ : BufTy).Contents (Elt Ideal)) (x3 : (⟨S128, .f32⟩ : BufTy).Contents (Elt Ideal)) :
    Cert.ReferenceIdeal.Read.val_main_v15 (F := Ideal) x0 x1 x2 x3 = Cert.Spec.GR x0 x1 x2 x3 := by
  funext i
  obtain ⟨r, o, rfl⟩ : ∃ (r : Fin 8192) (o : Fin 128), i = ValueIdx.ix2 r o := ⟨i 0, i 1, ValueIdx.eq_ix2 i⟩
  -- every stage read at its index, from the maximum down to the row sums and the constants
  simp only [Read.val_main_v15_apply, Read.val_main_v14_apply, Read.val_main_v11_apply, Read.val_main_v13_apply,
    Read.val_main_v12_apply, Read.val_main_v10_apply, Read.val_main_v9_apply, Read.val_main_v6_apply, Read.val_main_v8_apply,
    Read.val_main_v5_apply, Read.val_main_v7_apply, Read.val_main_v4_apply, Read.val_main_v3_apply, Read.val_main_v2_apply,
    Read.val_main_v1_apply, Read.val_main_v0_apply, Read.val_main_cst_apply, Read.val_main_cst_0_apply,
    Read.val_main_call0_v0_apply, Read.val_main_call0_cst_apply]
  -- the indices in plain coordinates, the operations as the extended reals', the two words as 0 and 1, and 0 + s = s
  simp only [second_left, second_right, first_left, first_right, row_factor, col_factor, rowsum_entry, bias_entry,
    Ideal.maximumf_def, Ideal.addf_def, Ideal.mulf_def, Ideal.hostDivf_def, Ideal.hostUnary_sqrt_def, Ideal.ofBits_def,
    Ideal.ofBits_zero_f32, ofBits_one_f32, zero_add]
  -- what is left is the specification's reference side at (r, o), term by term
  show _ = Spec.outR (Spec.at2 x0) (Spec.at2 x1) (Spec.at2 x2) (Spec.at1 x3) r o
  unfold Spec.outR Spec.aggR Spec.dR Spec.rowsum
  rfl

end Cert.RefValue

end
-- ==== Proof.Algebra.lean ====
/-
  The law that joins the two sides: where every entry of the adjacency and of the features is a real number and every
  row sum of the adjacency is positive, the kernel's result and the reference's are one extended real at every index.
-/
import proofs.«144340_j48576080118434_1_alg».proof.Proof.Spec

noncomputable section

namespace Cert.Spec

open Idealize.ShloMosaic

/-- The coercion of a finite sum of reals is the sum of the coercions. -/
theorem coe_finsum {ι : Type} (s : Finset ι) (g : ι → ℝ) :
    ((∑ i ∈ s, g i : ℝ) : EReal) = ∑ i ∈ s, (g i : EReal) := by
  classical
  induction s using Finset.induction_on with
  | empty => simp
  | insert i s hi ih => rw [Finset.sum_insert hi, Finset.sum_insert hi, EReal.coe_add, ih]

/-- At a positive real s the reciprocal square root is the real (√s)⁻¹: neither corner (s < 0, s = 0) is met. -/
theorem rsqrt_coe_pos {s : ℝ} (hs : 0 < s) :
    Ideal.rsqrt (s : EReal) = (((Real.sqrt s)⁻¹ : ℝ) : EReal) := by
  rw [Ideal.rsqrt_coe, if_neg (not_lt.2 hs.le), if_neg hs.ne']

/-- At a positive real s one over the square root is the same real (√s)⁻¹: √s is a nonzero real, so the quotient is
    the product 1 · (1 / √s). -/
theorem one_div_sqrt_coe_pos {s : ℝ} (hs : 0 < s) :
    Ideal.div 1 (Ideal.sqrt (s : EReal)) = (((Real.sqrt s)⁻¹ : ℝ) : EReal) := by
  rw [Ideal.sqrt_coe, if_neg (not_lt.2 hs.le), Ideal.div_coe (Real.sqrt_pos.2 hs).ne', one_mul, one_div]

/-- The real identity behind the two aggregates: scaling the columns by d before the contraction and the row by d r
    after it is the contraction against the doubly scaled adjacency. -/
theorem agg_real (a : Fin 8192 → ℝ) (x : Fin 8192 → ℝ) (d : Fin 8192 → ℝ) (dr : ℝ) :
    (∑ j : Fin 8192, a j * (x j * d j)) * dr = ∑ j : Fin 8192, ((a j * dr) * d j) * x j := by
  rw [Finset.sum_mul]
  exact Finset.sum_congr rfl (fun j _ => by ring)

theorem outK_eq_outR (A : Fin 8192 → Fin 8192 → EReal) (X : Fin 8192 → Fin 128 → EReal) (W : Fin 128 → Fin 128 → EReal) (b : Fin 128 → EReal)
    (hA : ∀ r j, ∃ a : ℝ, A r j = (a : EReal)) (hX : ∀ j f, ∃ x : ℝ, X j f = (x : EReal))
    (hpos : ∀ r, 0 < rowsum A r) (r : Fin 8192) (o : Fin 128) :
    outK A X W b r o = outR A X W b r o := by
  -- real witnesses for every entry
  choose a ha using hA
  choose x hx using hX
  -- every row sum is the coercion of a real sum, and that real sum is positive
  have hrow : ∀ r, rowsum A r = ((∑ j : Fin 8192, a r j : ℝ) : EReal) := by
    intro r
    rw [rowsum, coe_finsum]
    exact Finset.sum_congr rfl (fun j _ => ha r j)
  have hs : ∀ r, 0 < ∑ j : Fin 8192, a r j := fun r => EReal.coe_pos.1 (by rw [← hrow]; exact hpos r)
  -- both normalisers are the real (√(s r))⁻¹
  have hdK : ∀ r, dK A r = (((Real.sqrt (∑ j : Fin 8192, a r j))⁻¹ : ℝ) : EReal) := fun r => by
    rw [dK, hrow, rsqrt_coe_pos (hs r)]
  have hdR : ∀ r, dR A r = (((Real.sqrt (∑ j : Fin 8192, a r j))⁻¹ : ℝ) : EReal) := fun r => by
    rw [dR, hrow, one_div_sqrt_coe_pos (hs r)]
  -- the aggregates agree: both are coercions of one real number
  have hagg : ∀ f, aggK A X r f = aggR A X r f := by
    intro f
    rw [aggK, aggR]
    simp only [hdK, hdR, ha, hx, ← EReal.coe_mul, ← coe_finsum]
    rw [agg_real]
  rw [outK, outR]
  simp only [hagg]

theorem GK_eq_GR (A : (⟨2, ![8192, 8192]⟩ : Shape).Idx → EReal) (X : (⟨2, ![8192, 128]⟩ : Shape).Idx → EReal)
    (W : (⟨2, ![128, 128]⟩ : Shape).Idx → EReal) (b : (⟨1, ![128]⟩ : Shape).Idx → EReal)
    (hA : ∀ i, ∃ a : ℝ, A i = (a : EReal)) (hX : ∀ i, ∃ x : ℝ, X i = (x : EReal))
    (hpos : ∀ r : Fin 8192, 0 < ∑ j : Fin 8192, A (ValueIdx.ix2 r j)) :
    GK A X W b = GR A X W b := by
  funext i
  exact outK_eq_outR (at2 A) (at2 X) (at2 W) (at1 b) (fun r j => hA _) (fun j f => hX _) hpos (i 0) (i 1)

end Cert.Spec

end
-- ==== Proof.PreDecode.lean ====
/-
  What the precondition says of the inputs: every entry of the adjacency and of the features is a real number (its
  absolute value is below +∞), and every row sum of the adjacency is positive.
-/
import proofs.«144340_j48576080118434_1_alg».proof.Pre_finite_inputs
import proofs.«144340_j48576080118434_1_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.PreDecode

open Idealize.ShloMosaic Cert.Pre_finite_inputs

/-- The scalar shape has exactly one index (a function out of the empty set of axes). -/
instance subsingleton_scalarIdx : Subsingleton S_.Idx := ⟨fun _ _ => funext fun d => d.elim0⟩

/-- The f32 pattern with all-ones exponent and zero fraction denotes +∞. -/
theorem ofBits_inf : Ideal.ofBits .f32 0x7F800000#32 = (⊤ : EReal) := by simp [Ideal.ofBits, Ideal.ieee]

/-- An extended real whose absolute value max(x, -x) is strictly below +∞ is neither of the two infinities
    (at -∞ the negation is +∞, at +∞ the value itself is), hence a real number. -/
theorem real_of_abs_lt_top (x : EReal) (h : max x (-x) < ⊤) : ∃ a : ℝ, x = (a : EReal) := by
  induction x using EReal.rec with
  | bot => simp at h
  | coe r => exact ⟨r, rfl⟩
  | top => simp at h

/-- A truth value written as a one-bit word that reads 1 was true. -/
theorem of_ofBool_eq_one {p : Prop} [Decidable p] (h : BitVec.ofBool (decide p) = 1#1) : p := by
  by_contra hn
  rw [decide_eq_false hn] at h
  exact absurd h (by decide)

/-- "all(|x| < +∞)" over an array of any shape: if the conjunction over every index of the comparisons
    |x i| < +∞ is 1, then each comparison is 1, so each |x i| = max(x i, -(x i)) is below +∞ and x i is real. -/
theorem finite_of_all {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi
          (cmpf .olt (Host.absf x) (broadcastInDim s ![] hb (constant (F := Ideal) S_ .f32 0x7F800000#32)))
          (constantI S_ 1 1#1) hr h0 ValueIdx.ix0 = 1#1) (i : s.Idx) : ∃ a : ℝ, x i = (a : EReal) := by
  -- the element of the compared array at i: the comparison of max(x i, -(x i)) with the scalar constant
  have hi : Ideal.cmp .olt (max (x i) (-(x i))) (Ideal.ofBits .f32 0x7F800000#32) = 1#1 :=
    Host.reduce_andi_all _ _ hr h0 _ e i
  rw [ofBits_inf] at hi
  exact real_of_abs_lt_top _ (of_ofBool_eq_one hi)

/-- "all(sum(A, axis 1) > 0)": if the conjunction over the rows of the comparisons (row sum) > 0 is 1, each row's
    comparison is 1. The row sum at row r is the initial value 0 plus the sum over the column coordinate k of A at
    the index whose row is r and whose column is k, which is the index (r, k). -/
theorem rowsum_pos (A : FVec Ideal S8192x8192 .f32) (hr : S8192x8192.ReducesTo [1] S8192)
    (hb : S_.BroadcastsInDim S8192 (![] : Fin 0 → Fin S8192.rank)) (hr2 : S8192.ReducesTo [0] S_) (h0 : 0 < S_.numel)
    (e : Host.reduce IntOp.andi
          (cmpf .ogt (Host.reduceAdd A (constant (F := Ideal) S_ .f32 0x00000000#32) hr h0)
            (broadcastInDim S8192 ![] hb (constant (F := Ideal) S_ .f32 0x00000000#32)))
          (constantI S_ 1 1#1) hr2 h0 ValueIdx.ix0 = 1#1) (r : Fin 8192) :
    (0 : EReal) < ∑ j : Fin 8192, A (ValueIdx.ix2 r j) := by
  have hi : Ideal.cmp .ogt (Ideal.hostReduceAdd hr A (Ideal.ofBits .f32 0x00000000#32) (ValueIdx.ix1 r))
      (Ideal.ofBits .f32 0x00000000#32) = 1#1 :=
    Host.reduce_andi_all _ _ hr2 h0 _ e (ValueIdx.ix1 r)
  -- the sum over one axis is the initial value plus the sum over that axis's coordinate; the zero pattern is 0
  rw [Ideal.hostReduceAdd_single hr (by decide), Ideal.ofBits_zero_f32, zero_add] at hi
  have hpos := of_ofBool_eq_one hi
  -- the reduced index r with the column k put back is (r, k), coordinate by coordinate
  refine lt_of_lt_of_eq hpos (Finset.sum_congr rfl fun k _ => congrArg A (funext fun a => Fin.ext ?_))
  match a with
  | ⟨0, _⟩ => rfl
  | ⟨1, _⟩ => rfl

theorem of_pre [Cert.Pre_finite_inputs.Facts]
    (A : FVec Ideal S8192x8192 .f32) (X : FVec Ideal S8192x128 .f32) (W : FVec Ideal S128x128 .f32) (b : FVec Ideal S128 .f32)
    (h : Cert.Pre_finite_inputs.fn (F := Ideal) A X W b = fun _ => 1#1) :
    (∀ i, ∃ a : ℝ, A i = (a : EReal)) ∧ (∀ i, ∃ x : ℝ, X i = (x : EReal))
      ∧ (∀ r : Fin 8192, (0 : EReal) < ∑ j : Fin 8192, A (ValueIdx.ix2 r j)) := by
  -- the predicate at its one index is a five-fold conjunction: four finiteness tests and the row-sum test
  have h0 := congrFun h ValueIdx.ix0
  dsimp only [fn, fn_part1] at h0
  obtain ⟨h1, hS⟩ := IntOp.andi_eq_one.1 h0
  obtain ⟨h2, _⟩ := IntOp.andi_eq_one.1 h1
  obtain ⟨h3, _⟩ := IntOp.andi_eq_one.1 h2
  obtain ⟨hA, hX⟩ := IntOp.andi_eq_one.1 h3
  exact ⟨finite_of_all A _ _ _ hA, finite_of_all X _ _ _ hX, rowsum_pos A _ _ _ _ hS⟩

end Cert.PreDecode

end
-- ==== Proof.lean ====
/-
  A graph-convolution layer: out = max (Â · X · W + b) 0 with Â = D^(-1/2) · A · D^(-1/2), D the diagonal of A's row sums.
  The kernel makes two passes over the adjacency: the first accumulates the row sums block by block along each row of
  blocks and stores their reciprocal square roots d; the host scales the rows of X by d; the second accumulates
  A · (d ∘ X) block by block, scales the rows of the result by d, multiplies by W, adds b and takes the maximum with 0.
  The reference normalises the adjacency first, (A ∘ d dᵀ), with d = 1 / sqrt of the row sums, and multiplies through.
  Over the extended reals the two agree where the reference's 1 / sqrt is inside its domain: every input entry a real
  number and every row sum positive (the precondition). There d is the same positive real on both sides, every value is
  a real number, the accumulations are plain finite sums (addition of extended reals is associative and commutative),
  and d r moves across the sum over j by distributivity in the reals.
  Frames: each kernel region is run point by point over the pipeline's schedule, the running sums carried from point to
  point in the region's invariant; the regions and the host stretch between them are composed along the buffers'
  contents at each boundary; no operation and no region writes an argument array. The reference's frame is its run.
-/
import proofs.«144340_j48576080118434_1_alg».proof.Defs
import proofs.«144340_j48576080118434_1_alg».proof.Proof.Gen.Kernel
import proofs.«144340_j48576080118434_1_alg».proof.Proof.Gen.KernelIdeal
import proofs.«144340_j48576080118434_1_alg».proof.Proof.Gen.ReferenceIdeal
import proofs.«144340_j48576080118434_1_alg».proof.Proof.Gen.Pre_finite_inputs
import proofs.«144340_j48576080118434_1_alg».proof.Proof.Gen.ReferenceIdeal.Run
import proofs.«144340_j48576080118434_1_alg».proof.Proof.Gen.ReferenceIdeal.Read
import proofs.«144340_j48576080118434_1_alg».proof.Proof.K.Launch
import proofs.«144340_j48576080118434_1_alg».proof.Proof.KI.Launch
import proofs.«144340_j48576080118434_1_alg».proof.Proof.Val.Final
import proofs.«144340_j48576080118434_1_alg».proof.Proof.RefValue
import proofs.«144340_j48576080118434_1_alg».proof.Proof.Algebra
import proofs.«144340_j48576080118434_1_alg».proof.Proof.PreDecode

noncomputable section

namespace Cert.Proof

open Idealize.ShloMosaic Idealize.ShloMosaic.TcCoe Idealize.SL.Sem

/-- The word-level kernel runs to the end, faults nowhere and leaves its arguments as launched. -/
theorem frame_k : Cert.frame_Kernel := fun m ρ _ => Cert.Kernel.Frm.frame m ρ

/-- So does its idealization. -/
theorem frame_ki : Cert.frame_KernelIdeal := fun m ρ _ => Cert.KernelIdeal.Frm.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the four arguments, on which every entry is a real number and every row sum of the
    adjacency is positive, the idealized kernel ends with its result array at the specification's kernel side and the
    reference at the specification's reference side of the same arrays; the two sides are one function there. -/
theorem algebraic : Cert.algebraic_KernelIdeal_ReferenceIdeal := by
  intro m ρ m' ρ' hpre hagree
  refine ⟨fun c => Cert.Spec.GK (Cert.KernelIdeal.Val.arrA m c) (Cert.KernelIdeal.Val.arrX m c) (Cert.KernelIdeal.Val.arrW m c) (Cert.KernelIdeal.Val.arrB m c),
    Cert.KernelIdeal.Val.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.RefValue.ref_eq, (hagree c).1, (hagree c).2.1, (hagree c).2.2.1, (hagree c).2.2.2]
  obtain ⟨hA, hX, hpos⟩ := Cert.PreDecode.of_pre _ _ _ _ (hpre c)
  exact (Cert.Spec.GK_eq_GR _ _ _ _ hA hX hpos).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
